-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S8x320 : Shape := ⟨2, ![8, 320]⟩
abbrev S1024x1024 : Shape := ⟨2, ![1024, 1024]⟩
abbrev S1024 : Shape := ⟨1, ![1024]⟩
abbrev S1024x32000 : Shape := ⟨2, ![1024, 32000]⟩
abbrev S32000 : Shape := ⟨1, ![32000]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x32000 : S_.BroadcastsInDim S1024x32000 (![] : Fin 0 → Fin S1024x32000.rank)
  reducesTo_S1024x32000_S_d0_1 : S1024x32000.ReducesTo [0, 1] S_
  bcast_S_S32000 : S_.BroadcastsInDim S32000 (![] : Fin 0 → Fin S32000.rank)
  reducesTo_S32000_S_d0 : S32000.ReducesTo [0] S_
  bcast_S_S8x320 : S_.BroadcastsInDim S8x320 (![] : Fin 0 → Fin S8x320.rank)
  reducesTo_S8x320_S_d0_1 : S8x320.ReducesTo [0, 1] S_

variable [Facts]

def fn_part2 {F : FTy → Type} [FloatOps F] (main_arg1 : IVec S8x320 32) (main_v33 : IVec S_ 1) : IVec S_ 1 :=
  let main_c_12 : IVec S_ 32 := constantI S_ 32 0#32
  let main_v34 : IVec S8x320 32 := broadcastInDim S8x320 ![] bcast_S_S8x320 main_c_12
  let main_v35 : IVec S8x320 1 := cmpi .sge main_arg1 main_v34
  let main_c_13 : IVec S_ 1 := constantI S_ 1 1#1
  let main_v36 : IVec S_ 1 := (fun x v => Host.reduce IntOp.andi x v reducesTo_S8x320_S_d0_1 h_S_) main_v35 main_c_13
  let main_v37 : IVec S_ 1 := andi main_v33 main_v36
  let main_c_14 : IVec S_ 32 := constantI S_ 32 2048#32
  let main_v38 : IVec S8x320 32 := broadcastInDim S8x320 ![] bcast_S_S8x320 main_c_14
  let main_v39 : IVec S8x320 1 := cmpi .slt main_arg1 main_v38
  let main_c_15 : IVec S_ 1 := constantI S_ 1 1#1
  let main_v40 : IVec S_ 1 := (fun x v => Host.reduce IntOp.andi x v reducesTo_S8x320_S_d0_1 h_S_) main_v39 main_c_15
  let main_v41 : IVec S_ 1 := andi main_v37 main_v40
  main_v41

def fn_part1 {F : FTy → Type} [FloatOps F] (main_arg1 : IVec S8x320 32) (main_arg5 : FVec F S1024 .f32) (main_arg6 : FVec F S1024x32000 .f32) (main_arg7 : FVec F S32000 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg5
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x32000 .f32 := Host.absf main_arg6
  let main_cst_8 : FVec F S_ .f32 := constant S_ .f32 0x7F800000#32
  let main_v25 : FVec F S1024x32000 .f32 := broadcastInDim S1024x32000 ![] bcast_S_S1024x32000 main_cst_8
  let main_v26 : IVec S1024x32000 1 := cmpf .olt main_v24 main_v25
  let main_c_9 : IVec S_ 1 := constantI S_ 1 1#1
  let main_v27 : IVec S_ 1 := (fun x v => Host.reduce IntOp.andi x v reducesTo_S1024x32000_S_d0_1 h_S_) main_v26 main_c_9
  let main_v28 : IVec S_ 1 := andi main_v23 main_v27
  let main_v29 : FVec F S32000 .f32 := Host.absf main_arg7
  let main_cst_10 : FVec F S_ .f32 := constant S_ .f32 0x7F800000#32
  let main_v30 : FVec F S32000 .f32 := broadcastInDim S32000 ![] bcast_S_S32000 main_cst_10
  let main_v31 : IVec S32000 1 := cmpf .olt main_v29 main_v30
  let main_c_11 : IVec S_ 1 := constantI S_ 1 1#1
  let main_v32 : IVec S_ 1 := (fun x v => Host.reduce IntOp.andi x v reducesTo_S32000_S_d0 h_S_) main_v31 main_c_11
  let main_v33 : IVec S_ 1 := andi main_v28 main_v32
  fn_part2 (F := F) main_arg1 main_v33

def fn {F : FTy → Type} [FloatOps F] (main_arg0 : FVec F S8x2048x1024 .f32) (main_arg1 : IVec S8x320 32) (main_arg2 : FVec F S1024x1024 .f32) (main_arg3 : FVec F S1024 .f32) (main_arg4 : FVec F S1024 .f32) (main_arg5 : FVec F S1024 .f32) (main_arg6 : FVec F S1024x32000 .f32) (main_arg7 : FVec F S32000 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1024x1024 .f32 := Host.absf main_arg2
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg4
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg1 main_arg5 main_arg6 main_arg7 main_v13 main_v16
-- ==== Kernel.lean ====
abbrev S8x2048x1024 : Shape := ⟨3, ![8, 2048, 1024]⟩
abbrev S8x320 : Shape := ⟨2, ![8, 320]⟩
abbrev S1024x1024 : Shape := ⟨2, ![1024, 1024]⟩
abbrev S1024 : Shape := ⟨1, ![1024]⟩
abbrev S1024x32000 : Shape := ⟨2, ![1024, 32000]⟩
abbrev S32000 : Shape := ⟨1, ![32000]⟩
abbrev S_ : Shape := ⟨0, ![]⟩
abbrev S8x1x320 : Shape := ⟨3, ![8, 1, 320]⟩
abbrev S1x1024 : Shape := ⟨2, ![1, 1024]⟩
abbrev S8x320x1024 : Shape := ⟨3, ![8, 320, 1024]⟩
abbrev S1x1x320 : Shape := ⟨3, ![1, 1, 320]⟩
abbrev S1x2048x1024 : Shape := ⟨3, ![1, 2048, 1024]⟩
abbrev S1x320x1024 : Shape := ⟨3, ![1, 320, 1024]⟩
abbrev S320 : Shape := ⟨1, ![320]⟩
abbrev S320x2048 : Shape := ⟨2, ![320, 2048]⟩
abbrev S320x1 : Shape := ⟨2, ![320, 1]⟩
abbrev S2048x1024 : Shape := ⟨2, ![2048, 1024]⟩
abbrev S320x1024 : Shape := ⟨2, ![320, 1024]⟩
abbrev S2560x1024 : Shape := ⟨2, ![2560, 1024]⟩
abbrev S1x32000 : Shape := ⟨2, ![1, 32000]⟩
abbrev S2560x32000 : Shape := ⟨2, ![2560, 32000]⟩
abbrev S1024x256 : Shape := ⟨2, ![1024, 256]⟩
abbrev S1x256 : Shape := ⟨2, ![1, 256]⟩
abbrev S2560x256 : Shape := ⟨2, ![2560, 256]⟩
abbrev S8x320x32000 : Shape := ⟨3, ![8, 320, 32000]⟩

abbrev nBuf : Space → Nat
  | .hbm => 26
  | .vmem => 17
  | .smem => 0
  | _ => 0

abbrev bufTy : (tb : Table) → Fin (tcTables nBuf tb) → BufTy
  | .hbm, ⟨0, _⟩ => ⟨S8x2048x1024, .f32⟩
  | .hbm, ⟨1, _⟩ => ⟨S8x320, .i32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x32000, .f32⟩
  | .hbm, ⟨7, _⟩ => ⟨S32000, .f32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S8x320, .i32⟩
  | .hbm, ⟨12, _⟩ => ⟨S8x320, .i32⟩
  | .hbm, ⟨13, _⟩ => ⟨S_, .i32⟩
  | .hbm, ⟨14, _⟩ => ⟨S8x320, .i32⟩
  | .hbm, ⟨15, _⟩ => ⟨S8x320, .i32⟩
  | .hbm, ⟨16, _⟩ => ⟨S8x1x320, .i32⟩
  | .hbm, ⟨17, _⟩ => ⟨S1024x1024, .bf16⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S8x320x1024, .bf16⟩
  | .hbm, ⟨22, _⟩ => ⟨S2560x1024, .bf16⟩
  | .hbm, ⟨23, _⟩ => ⟨S1x32000, .f32⟩
  | .hbm, ⟨24, _⟩ => ⟨S2560x32000, .f32⟩
  | .hbm, ⟨25, _⟩ => ⟨S8x320x32000, .f32⟩
  | .local _ .vmem, ⟨0, _⟩ => ⟨S1x1x320, .i32⟩
  | .local _ .vmem, ⟨1, _⟩ => ⟨S1x1x320, .i32⟩
  | .local _ .vmem, ⟨2, _⟩ => ⟨S1x2048x1024, .f32⟩
  | .local _ .vmem, ⟨3, _⟩ => ⟨S1x2048x1024, .f32⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x320x1024, .bf16⟩
  | .local _ .vmem, ⟨9, _⟩ => ⟨S1x320x1024, .bf16⟩
  | .local _ .vmem, ⟨10, _⟩ => ⟨S2560x1024, .bf16⟩
  | .local _ .vmem, ⟨11, _⟩ => ⟨S1024x256, .f32⟩
  | .local _ .vmem, ⟨12, _⟩ => ⟨S1024x256, .f32⟩
  | .local _ .vmem, ⟨13, _⟩ => ⟨S1x256, .f32⟩
  | .local _ .vmem, ⟨14, _⟩ => ⟨S1x256, .f32⟩
  | .local _ .vmem, ⟨15, _⟩ => ⟨S2560x256, .f32⟩
  | .local _ .vmem, ⟨16, _⟩ => ⟨S2560x256, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x320 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x320x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S2560x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1024x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2560x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S8x320 : S_.BroadcastsInDim S8x320 (![] : Fin 0 → Fin S8x320.rank)
  shapeCasts_S8x320_S8x1x320 : S8x320.ShapeCasts S8x1x320
  bitsLt_bf16_f32 : FTy.bits .bf16 < FTy.bits .f32
  shapeCasts_S1024_S1x1024 : S1024.ShapeCasts S1x1024
  inb_S1x1x320_S1x1x320_0_0_0 : ∀ a, (![0, 0, 0] : Fin 3 → Nat) a + S1x1x320.size a ≤ S1x1x320.size a
  h_S1x1x320 : 0 < S1x1x320.numel
  shapeCasts_S1x1x320_S1x1x320 : S1x1x320.ShapeCasts S1x1x320
  shapeCasts_S1x1x320_S320 : S1x1x320.ShapeCasts S320
  iota_S320x2048_d1_w32 : S320x2048.Iotas .tc 32 [1]
  shapeCasts_S320_S320x1 : S320.ShapeCasts S320x1
  broadcasts_S320x1_S320x2048 : S320x1.Broadcasts S320x2048
  natLt_1_32 : 1 < 32
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S320x1024 : S1x1024.Broadcasts S320x1024
  reduces_S320x1024_S320 : S320x1024.Reduces [1] S320
  broadcasts_S320x1_S320x1024 : S320x1.Broadcasts S320x1024
  inb_S1x320x1024_S1x320x1024_0_0_0 : ∀ a, (![0, 0, 0] : Fin 3 → Nat) a + S1x320x1024.size a ≤ S1x320x1024.size a
  h_S1x320x1024 : 0 < S1x320x1024.numel
  shapeCasts_S1x320x1024_S320x1024 : S1x320x1024.ShapeCasts S320x1024
  shapeCasts_S320x1024_S1x320x1024 : S320x1024.ShapeCasts S1x320x1024
  packedbf16_S1x320x1024_S1x320x1024_0_0_0 : (Rect.unit (s := S1x320x1024) ![0, 0, 0] S1x320x1024.size inb_S1x320x1024_S1x320x1024_0_0_0).PackedRows (EltTy.packing .bf16)
  shapeCasts_S8x320x1024_S2560x1024 : S8x320x1024.ShapeCasts S2560x1024
  shapeCasts_S32000_S1x32000 : S32000.ShapeCasts S1x32000
  inb_S2560x1024_S2560x1024_0_0 : ∀ a, (![0, 0] : Fin 2 → Nat) a + S2560x1024.size a ≤ S2560x1024.size a
  h_S2560x1024 : 0 < S2560x1024.numel
  shapeCasts_S2560x1024_S2560x1024 : S2560x1024.ShapeCasts S2560x1024
  inb_S1024x256_S1024x256_0_0 : ∀ a, (![0, 0] : Fin 2 → Nat) a + S1024x256.size a ≤ S1024x256.size a
  h_S1024x256 : 0 < S1024x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2560x256 : S1x256.Broadcasts S2560x256
  inb_S2560x256_S2560x256_0_0 : ∀ a, (![0, 0] : Fin 2 → Nat) a + S2560x256.size a ≤ S2560x256.size a
  h_S2560x256 : 0 < S2560x256.numel
  shapeCasts_S2560x32000_S8x320x32000 : S2560x32000.ShapeCasts S8x320x32000
  dot_S320x2048_S2048x1024_S320x1024_1_0_0_1_n_n_wf : DotDims.WF S320x2048 S2048x1024 S320x1024 [1] [0] [0] [1] [] []
  dot_S320x1024_S1024x1024_S320x1024_1_0_0_1_n_n_wf : DotDims.WF S320x1024 S1024x1024 S320x1024 [1] [0] [0] [1] [] []
  dot_S2560x1024_S1024x256_S2560x256_1_0_0_1_n_n_wf : DotDims.WF S2560x1024 S1024x256 S2560x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x320.size a ≤ S8x1x320.size a
  hwx0_0 : ∀ i : grid0.Coords, EltTy.bits .i32 = 32 ∨ (Rect.block (s := S8x1x320) S1x1x320.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x1024.size a ≤ S8x2048x1024.size a
  hwx0_1 : ∀ i : grid0.Coords, EltTy.bits .f32 = 32 ∨ (Rect.block (s := S8x2048x1024) S1x2048x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x320x1024.size a ≤ S8x320x1024.size a
  hwx0_6 : ∀ i : grid0.Coords, EltTy.bits .bf16 = 32 ∨ (Rect.block (s := S8x320x1024) S1x320x1024.size (cc0_transform_6 i) (hinb0_6 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S2560x1024.size a ≤ S2560x1024.size a
  hwx1_0 : ∀ i : grid1.Coords, EltTy.bits .bf16 = 32 ∨ (Rect.block (s := S2560x1024) S2560x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S1024x32000.size a
  hwx1_1 : ∀ i : grid1.Coords, EltTy.bits .f32 = 32 ∨ (Rect.block (s := S1024x32000) S1024x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x32000.size a
  hwx1_2 : ∀ i : grid1.Coords, EltTy.bits .f32 = 32 ∨ (Rect.block (s := S1x32000) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2560x256.size a ≤ S2560x32000.size a
  hwx1_3 : ∀ i : grid1.Coords, EltTy.bits .f32 = 32 ∨ (Rect.block (s := S2560x32000) S2560x256.size (cc1_transform_3 i) (hinb1_3 i)).WholeWords (EltTy.packing .f32)

variable [Facts₀]

def dot_S320x2048_S2048x1024_S320x1024_1_0_0_1_n_n : DotDims S320x2048 S2048x1024 S320x1024 where
  lhsContracting := [1]
  rhsContracting := [0]
  lhsNonContracting := [0]
  rhsNonContracting := [1]
  lhsBatch := []
  rhsBatch := []
  wf := dot_S320x2048_S2048x1024_S320x1024_1_0_0_1_n_n_wf
def dot_S320x1024_S1024x1024_S320x1024_1_0_0_1_n_n : DotDims S320x1024 S1024x1024 S320x1024 where
  lhsContracting := [1]
  rhsContracting := [0]
  lhsNonContracting := [0]
  rhsNonContracting := [1]
  lhsBatch := []
  rhsBatch := []
  wf := dot_S320x1024_S1024x1024_S320x1024_1_0_0_1_n_n_wf
def dot_S2560x1024_S1024x256_S2560x256_1_0_0_1_n_n : DotDims S2560x1024 S1024x256 S2560x256 where
  lhsContracting := [1]
  rhsContracting := [0]
  lhsNonContracting := [0]
  rhsNonContracting := [1]
  lhsBatch := []
  rhsBatch := []
  wf := dot_S2560x1024_S1024x256_S2560x256_1_0_0_1_n_n_wf

abbrev win0_0 : Pipeline.Window sig grid0 :=
  Pipeline.Window.ofSpec (Memref.whole main_v1) S1x1x320.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x320x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v7) S2560x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9) S2560x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8x2048x1024 : Shape := ⟨3, ![8, 2048, 1024]⟩
abbrev S8x320 : Shape := ⟨2, ![8, 320]⟩
abbrev S1024x1024 : Shape := ⟨2, ![1024, 1024]⟩
abbrev S1024 : Shape := ⟨1, ![1024]⟩
abbrev S1024x32000 : Shape := ⟨2, ![1024, 32000]⟩
abbrev S32000 : Shape := ⟨1, ![32000]⟩
abbrev S8x320x1 : Shape := ⟨3, ![8, 320, 1]⟩
abbrev S_ : Shape := ⟨0, ![]⟩
abbrev S1 : Shape := ⟨1, ![1]⟩
abbrev S1x1x1 : Shape := ⟨3, ![1, 1, 1]⟩
abbrev S8x320x1024 : Shape := ⟨3, ![8, 320, 1024]⟩
abbrev S1x1x1024 : Shape := ⟨3, ![1, 1, 1024]⟩
abbrev S8x320x32000 : Shape := ⟨3, ![8, 320, 32000]⟩
abbrev S1x1x32000 : Shape := ⟨3, ![1, 1, 32000]⟩

abbrev nBuf : Space → Nat
  | .hbm => 86
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x320, .i32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x32000, .f32⟩
  | .hbm, ⟨7, _⟩ => ⟨S32000, .f32⟩
  | .hbm, ⟨8, _⟩ => ⟨S8x320x1, .i32⟩
  | .hbm, ⟨9, _⟩ => ⟨S_, .i32⟩
  | .hbm, ⟨10, _⟩ => ⟨S8x320x1, .i32⟩
  | .hbm, ⟨11, _⟩ => ⟨S8x320x1, .i1⟩
  | .hbm, ⟨12, _⟩ => ⟨S_, .i32⟩
  | .hbm, ⟨13, _⟩ => ⟨S8x320x1, .i32⟩
  | .hbm, ⟨14, _⟩ => ⟨S8x320x1, .i32⟩
  | .hbm, ⟨15, _⟩ => ⟨S8x320x1, .i32⟩
  | .hbm, ⟨16, _⟩ => ⟨S1, .i32⟩
  | .hbm, ⟨17, _⟩ => ⟨S_, .i32⟩
  | .hbm, ⟨18, _⟩ => ⟨S8x320x1, .i32⟩
  | .hbm, ⟨19, _⟩ => ⟨S8x320x1, .i1⟩
  | .hbm, ⟨20, _⟩ => ⟨S1x1x1, .i32⟩
  | .hbm, ⟨21, _⟩ => ⟨S8x320x1, .i32⟩
  | .hbm, ⟨22, _⟩ => ⟨S8x320x1, .i1⟩
  | .hbm, ⟨23, _⟩ => ⟨S8x320x1, .i1⟩
  | .hbm, ⟨24, _⟩ => ⟨S_, .i1⟩
  | .hbm, ⟨25, _⟩ => ⟨S8x320, .i1⟩
  | .hbm, ⟨26, _⟩ => ⟨S8x320x1024, .f32⟩
  | .hbm, ⟨27, _⟩ => ⟨S8x320x1024, .i1⟩
  | .hbm, ⟨28, _⟩ => ⟨S_, .f32⟩
  | .hbm, ⟨29, _⟩ => ⟨S8x320x1024, .f32⟩
  | .hbm, ⟨30, _⟩ => ⟨S8x320x1024, .f32⟩
  | .hbm, ⟨31, _⟩ => ⟨S8x320x1024, .f32⟩
  | .hbm, ⟨32, _⟩ => ⟨S1x1x1024, .f32⟩
  | .hbm, ⟨33, _⟩ => ⟨S8x320x1024, .f32⟩
  | .hbm, ⟨34, _⟩ => ⟨S8x320x1024, .f32⟩
  | .hbm, ⟨35, _⟩ => ⟨S_, .f32⟩
  | .hbm, ⟨36, _⟩ => ⟨S8x320x1024, .f32⟩
  | .hbm, ⟨37, _⟩ => ⟨S8x320x1024, .f32⟩
  | .hbm, ⟨38, _⟩ => ⟨S_, .f32⟩
  | .hbm, ⟨39, _⟩ => ⟨S8x320, .f32⟩
  | .hbm, ⟨40, _⟩ => ⟨S8x320x1, .f32⟩
  | .hbm, ⟨41, _⟩ => ⟨S_, .f32⟩
  | .hbm, ⟨42, _⟩ => ⟨S8x320x1, .f32⟩
  | .hbm, ⟨43, _⟩ => ⟨S8x320x1, .f32⟩
  | .hbm, ⟨44, _⟩ => ⟨S_, .i32⟩
  | .hbm, ⟨45, _⟩ => ⟨S_, .f32⟩
  | .hbm, ⟨46, _⟩ => ⟨S8x320, .f32⟩
  | .hbm, ⟨47, _⟩ => ⟨S8x320x1, .f32⟩
  | .hbm, ⟨48, _⟩ => ⟨S_, .f32⟩
  | .hbm, ⟨49, _⟩ => ⟨S8x320x1, .f32⟩
  | .hbm, ⟨50, _⟩ => ⟨S8x320x1, .f32⟩
  | .hbm, ⟨51, _⟩ => ⟨S8x320x1024, .f32⟩
  | .hbm, ⟨52, _⟩ => ⟨S8x320x1024, .f32⟩
  | .hbm, ⟨53, _⟩ => ⟨S8x320x1024, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S8x320, .f32⟩
  | .hbm, ⟨59, _⟩ => ⟨S8x320x1, .f32⟩
  | .hbm, ⟨60, _⟩ => ⟨S8x320x1, .f32⟩
  | .hbm, ⟨61, _⟩ => ⟨S8x320x1, .f32⟩
  | .hbm, ⟨62, _⟩ => ⟨S_, .f32⟩
  | .hbm, ⟨63, _⟩ => ⟨S_, .i1⟩
  | .hbm, ⟨64, _⟩ => ⟨S_, .f32⟩
  | .hbm, ⟨65, _⟩ => ⟨S_, .f32⟩
  | .hbm, ⟨66, _⟩ => ⟨S8x320x1, .f32⟩
  | .hbm, ⟨67, _⟩ => ⟨S8x320x1, .f32⟩
  | .hbm, ⟨68, _⟩ => ⟨S8x320x1024, .f32⟩
  | .hbm, ⟨69, _⟩ => ⟨S8x320x1024, .f32⟩
  | .hbm, ⟨70, _⟩ => ⟨S_, .f32⟩
  | .hbm, ⟨71, _⟩ => ⟨S8x320x1, .f32⟩
  | .hbm, ⟨72, _⟩ => ⟨S8x320x1, .f32⟩
  | .hbm, ⟨73, _⟩ => ⟨S8x320x1, .f32⟩
  | .hbm, ⟨74, _⟩ => ⟨S8x320x1024, .f32⟩
  | .hbm, ⟨75, _⟩ => ⟨S8x320x1024, .f32⟩
  | .hbm, ⟨76, _⟩ => ⟨S1x1x1024, .f32⟩
  | .hbm, ⟨77, _⟩ => ⟨S8x320x1024, .f32⟩
  | .hbm, ⟨78, _⟩ => ⟨S8x320x1024, .f32⟩
  | .hbm, ⟨79, _⟩ => ⟨S1x1x1024, .f32⟩
  | .hbm, ⟨80, _⟩ => ⟨S8x320x1024, .f32⟩
  | .hbm, ⟨81, _⟩ => ⟨S8x320x1024, .f32⟩
  | .hbm, ⟨82, _⟩ => ⟨S8x320x32000, .f32⟩
  | .hbm, ⟨83, _⟩ => ⟨S1x1x32000, .f32⟩
  | .hbm, ⟨84, _⟩ => ⟨S8x320x32000, .f32⟩
  | .hbm, ⟨85, _⟩ => ⟨S8x320x32000, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_1 : Ref sig .tc := ⟨.hbm, 16, rfl⟩
abbrev main_call0_c_2 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_c_3 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_cst : Ref sig .tc := ⟨.hbm, 28, rfl⟩
abbrev main_call0_v14 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_call1_cst : Ref sig .tc := ⟨.hbm, 35, rfl⟩
abbrev main_call1_v0 : Ref sig .tc := ⟨.hbm, 36, rfl⟩
abbrev main_v6 : Ref sig .tc := ⟨.hbm, 37, rfl⟩
abbrev main_cst : Ref sig .tc := ⟨.hbm, 38, rfl⟩
abbrev main_v7 : Ref sig .tc := ⟨.hbm, 39, rfl⟩
abbrev main_v8 : Ref sig .tc := ⟨.hbm, 40, rfl⟩
abbrev main_cst_0 : Ref sig .tc := ⟨.hbm, 41, rfl⟩
abbrev main_v9 : Ref sig .tc := ⟨.hbm, 42, rfl⟩
abbrev main_v10 : Ref sig .tc := ⟨.hbm, 43, rfl⟩
abbrev main_c : Ref sig .tc := ⟨.hbm, 44, rfl⟩
abbrev main_call2_cst : Ref sig .tc := ⟨.hbm, 45, rfl⟩
abbrev main_call2_v0 : Ref sig .tc := ⟨.hbm, 46, rfl⟩
abbrev main_call2_v1 : Ref sig .tc := ⟨.hbm, 47, rfl⟩
abbrev main_call2_cst_0 : Ref sig .tc := ⟨.hbm, 48, rfl⟩
abbrev main_call2_v2 : Ref sig .tc := ⟨.hbm, 49, rfl⟩
abbrev main_call2_v3 : Ref sig .tc := ⟨.hbm, 50, rfl⟩
abbrev main_call2_v4 : Ref sig .tc := ⟨.hbm, 51, rfl⟩
abbrev main_call2_v5 : Ref sig .tc := ⟨.hbm, 52, rfl⟩
abbrev main_call2_v6 : Ref sig .tc := ⟨.hbm, 53, rfl⟩
abbrev main_call2_v7 : Ref sig .tc := ⟨.hbm, 54, rfl⟩
abbrev main_call2_cst_1 : Ref sig .tc := ⟨.hbm, 55, rfl⟩
abbrev main_call2_v8 : Ref sig .tc := ⟨.hbm, 56, rfl⟩
abbrev main_call2_cst_2 : Ref sig .tc := ⟨.hbm, 57, rfl⟩
abbrev main_call2_v9 : Ref sig .tc := ⟨.hbm, 58, rfl⟩
abbrev main_call2_v10 : Ref sig .tc := ⟨.hbm, 59, rfl⟩
abbrev main_call2_v11 : Ref sig .tc := ⟨.hbm, 60, rfl⟩
abbrev main_call2_v12 : Ref sig .tc := ⟨.hbm, 61, rfl⟩
abbrev main_call2_cst_3 : Ref sig .tc := ⟨.hbm, 62, rfl⟩
abbrev main_call2_v13 : Ref sig .tc := ⟨.hbm, 63, rfl⟩
abbrev main_call2_cst_4 : Ref sig .tc := ⟨.hbm, 64, rfl⟩
abbrev main_call2_call0_v0 : Ref sig .tc := ⟨.hbm, 65, rfl⟩
abbrev main_call2_call0_v1 : Ref sig .tc := ⟨.hbm, 66, rfl⟩
abbrev main_v11 : Ref sig .tc := ⟨.hbm, 67, rfl⟩
abbrev main_v12 : Ref sig .tc := ⟨.hbm, 68, rfl⟩
abbrev main_v13 : Ref sig .tc := ⟨.hbm, 69, rfl⟩
abbrev main_cst_1 : Ref sig .tc := ⟨.hbm, 70, rfl⟩
abbrev main_v14 : Ref sig .tc := ⟨.hbm, 71, rfl⟩
abbrev main_v15 : Ref sig .tc := ⟨.hbm, 72, rfl⟩
abbrev main_v16 : Ref sig .tc := ⟨.hbm, 73, rfl⟩
abbrev main_v17 : Ref sig .tc := ⟨.hbm, 74, rfl⟩
abbrev main_v18 : Ref sig .tc := ⟨.hbm, 75, rfl⟩
abbrev main_v19 : Ref sig .tc := ⟨.hbm, 76, rfl⟩
abbrev main_v20 : Ref sig .tc := ⟨.hbm, 77, rfl⟩
abbrev main_v21 : Ref sig .tc := ⟨.hbm, 78, rfl⟩
abbrev main_v22 : Ref sig .tc := ⟨.hbm, 79, rfl⟩
abbrev main_v23 : Ref sig .tc := ⟨.hbm, 80, rfl⟩
abbrev main_v24 : Ref sig .tc := ⟨.hbm, 81, rfl⟩
abbrev main_v25 : Ref sig .tc := ⟨.hbm, 82, rfl⟩
abbrev main_v26 : Ref sig .tc := ⟨.hbm, 83, rfl⟩
abbrev main_v27 : Ref sig .tc := ⟨.hbm, 84, rfl⟩
abbrev main_v28 : Ref sig .tc := ⟨.hbm, 85, rfl⟩

abbrev nD : Nat := 1
abbrev τ : Topo := Topo.v7x

variable {F : FTy → Type} [FloatOps F]

class Facts₀ : Prop where
  bcast_S8x320_S8x320x1_0_1 : S8x320.BroadcastsInDim S8x320x1 (![0, 1] : Fin 2 → Fin S8x320x1.rank)
  bcast_S_S8x320x1 : S_.BroadcastsInDim S8x320x1 (![] : Fin 0 → Fin S8x320x1.rank)
  bcast_S1_S1x1x1_2 : S1.BroadcastsInDim S1x1x1 (![2] : Fin 1 → Fin S1x1x1.rank)
  bcast_S1x1x1_S8x320x1_0_1_2 : S1x1x1.BroadcastsInDim S8x320x1 (![0, 1, 2] : Fin 3 → Fin S8x320x1.rank)
  reducesTo_S8x320x1_S8x320_d2 : S8x320x1.ReducesTo [2] S8x320
  h_S_ : 0 < S_.numel
  bcast_S8x320_S8x320x1024_0_1 : S8x320.BroadcastsInDim S8x320x1024 (![0, 1] : Fin 2 → Fin S8x320x1024.rank)
  bcast_S_S8x320x1024 : S_.BroadcastsInDim S8x320x1024 (![] : Fin 0 → Fin S8x320x1024.rank)
  bcast_S1024_S1x1x1024_2 : S1024.BroadcastsInDim S1x1x1024 (![2] : Fin 1 → Fin S1x1x1024.rank)
  bcast_S1x1x1024_S8x320x1024_0_1_2 : S1x1x1024.BroadcastsInDim S8x320x1024 (![0, 1, 2] : Fin 3 → Fin S8x320x1024.rank)
  reducesTo_S8x320x1024_S8x320_d2 : S8x320x1024.ReducesTo [2] S8x320
  bcast_S8x320x1_S8x320x1024_0_1_2 : S8x320x1.BroadcastsInDim S8x320x1024 (![0, 1, 2] : Fin 3 → Fin S8x320x1024.rank)
  bcast_S32000_S1x1x32000_2 : S32000.BroadcastsInDim S1x1x32000 (![2] : Fin 1 → Fin S1x1x32000.rank)
  bcast_S1x1x32000_S8x320x32000_0_1_2 : S1x1x32000.BroadcastsInDim S8x320x32000 (![0, 1, 2] : Fin 3 → Fin S8x320x32000.rank)
  gather_S8x2048x1024_S8x320x1_S8x320x1024_2_1_0_0_1_2_111024_wf : GatherDims.WF S8x2048x1024 S8x320x1 S8x320x1024 [2] [1] [0] [1] [0] 2 ![1, 1, 1024]
  dot_S8x320x1024_S1024x1024_S8x320x1024_2_0_01_1_n_n_wf : DotDims.WF S8x320x1024 S1024x1024 S8x320x1024 [2] [0] [0, 1] [1] [] []
  dot_S8x320x1024_S1024x32000_S8x320x32000_2_0_01_1_n_n_wf : DotDims.WF S8x320x1024 S1024x32000 S8x320x32000 [2] [0] [0, 1] [1] [] []

variable [Facts₀]

def gather_S8x2048x1024_S8x320x1_S8x320x1024_2_1_0_0_1_2_111024 : GatherDims S8x2048x1024 S8x320x1 S8x320x1024 where
  offsetDims := [2]
  collapsedSliceDims := [1]
  operandBatchingDims := [0]
  startIndicesBatchingDims := [0]
  startIndexMap := [1]
  indexVectorDim := 2
  sliceSizes := ![1, 1, 1024]
  wf := gather_S8x2048x1024_S8x320x1_S8x320x1024_2_1_0_0_1_2_111024_wf
def dot_S8x320x1024_S1024x1024_S8x320x1024_2_0_01_1_n_n : DotDims S8x320x1024 S1024x1024 S8x320x1024 where
  lhsContracting := [2]
  rhsContracting := [0]
  lhsNonContracting := [0, 1]
  rhsNonContracting := [1]
  lhsBatch := []
  rhsBatch := []
  wf := dot_S8x320x1024_S1024x1024_S8x320x1024_2_0_01_1_n_n_wf
def dot_S8x320x1024_S1024x32000_S8x320x32000_2_0_01_1_n_n : DotDims S8x320x1024 S1024x32000 S8x320x32000 where
  lhsContracting := [2]
  rhsContracting := [0]
  lhsNonContracting := [0, 1]
  rhsNonContracting := [1]
  lhsBatch := []
  rhsBatch := []
  wf := dot_S8x320x1024_S1024x32000_S8x320x32000_2_0_01_1_n_n_wf

class Facts : Prop extends Facts₀ where

variable [Facts]
-- ==== Proof.PreRange.lean ====
/-
  The position range read out of the precondition.

  The precondition of the statement is a conjunction of whole-array tests; its last two conjuncts say that
  every position word is at least 0 and below 2048, both as signed comparisons of 32-bit words.  A signed
  word w with 0 ≤ w has its sign bit clear, so its signed and unsigned readings agree; with w < 2048 signed
  this gives w.toNat < 2048.  The module states that fact for one word, then reads the two conjuncts out of
  the precondition at one entry (b, p) of the position array.
-/
import proofs.«419608_j49538152792852_3_alg».proof.Pre_finite_inputs
import Idealize.ShloMosaic.Lib.ReduceAll
import Idealize.ShloMosaic.Lib.StableHlo.Predicate
import Idealize.ShloMosaic.Lib.ValueIdx

namespace Cert.PreRange

open Idealize.ShloMosaic Idealize.ShloMosaic.ValueIdx Cert.Pre_finite_inputs

/-- The scalar shape has exactly one index. -/
instance : Subsingleton S_.Idx := ⟨fun _ _ => funext fun d => d.elim0⟩

/-- A word that is at least 0 and below 2048 as a signed word is below 2048 as a natural number. -/
theorem toNat_lt_of_signed (w : BitVec 32) (h0 : IntOp.cmpi .sge w 0#32 = 1#1)
    (h1 : IntOp.cmpi .slt w 2048#32 = 1#1) : w.toNat < 2048 := by
  have a0 : (0#32 : BitVec 32).toInt ≤ w.toInt := IntOp.cmpi_sge.1 h0
  have a1 : w.toInt < (2048#32 : BitVec 32).toInt := IntOp.cmpi_slt.1 h1
  have z0 : (0#32 : BitVec 32).toInt = 0 := by decide
  have z1 : (2048#32 : BitVec 32).toInt = 2048 := by decide
  rw [z0] at a0
  rw [z1] at a1
  have c := BitVec.toInt_eq_toNat_cond w
  have hw := w.isLt
  split at c <;> omega

/-- Under the precondition every position word is below 2048. -/
theorem pos_lt_of_pre [Cert.Pre_finite_inputs.Facts] (X : FVec Ideal Cert.Pre_finite_inputs.S8x2048x1024 .f32) (pos : IVec Cert.Pre_finite_inputs.S8x320 32)
    (W1 : FVec Ideal Cert.Pre_finite_inputs.S1024x1024 .f32) (b1 g be : FVec Ideal Cert.Pre_finite_inputs.S1024 .f32)
    (W2 : FVec Ideal Cert.Pre_finite_inputs.S1024x32000 .f32) (b2 : FVec Ideal Cert.Pre_finite_inputs.S32000 .f32)
    (h : Cert.Pre_finite_inputs.fn (F := Ideal) X pos W1 b1 g be W2 b2 = fun _ => 1#1) (b : Fin 8) (p : Fin 320) :
    (pos (Idealize.ShloMosaic.ValueIdx.ix2 b p)).toNat < 2048 := by
  have h' := congrFun h ix0
  dsimp only [fn, fn_part1, fn_part2] at h'
  -- the last two conjuncts: every word is ≥ 0, every word is < 2048
  obtain ⟨h37, h40⟩ := IntOp.andi_eq_one.1 h'
  obtain ⟨_, h36⟩ := IntOp.andi_eq_one.1 h37
  have e0 := Host.reduce_andi_all _ _ _ _ _ h36 (ix2 b p)
  have e1 := Host.reduce_andi_all _ _ _ _ _ h40 (ix2 b p)
  exact toNat_lt_of_signed _ e0 e1

end Cert.PreRange
-- ==== Proof.Spec.lean ====
/-
  The masked-language-model head as one function of its arguments, row by row, on the extended reals.

  For a batch entry b and a prediction slot p the position word pos(b, p) selects the row X(b, row, ·) of the
  sequence; that row x goes through
    lin  k = Σ_h x h · W1 h k                              (the hidden linear map)
    act  k = max (lin k + b1 k) 0                          (bias, then the rectifier)
    mean   = (Σ_k act k) / 1024
    dev  k = act k − mean
    var    = (Σ_k dev k · dev k) / 1024
    hn   k = dev k · rsqrt (var + ε) · γ k + β k           (the layer normalisation)
    logit v = Σ_h hn h · W2 h v + b2 v                     (the projection onto the vocabulary).
  The divisor 1024 and ε are the f32 words both programs carry, kept as words: they are never evaluated.
  Every array enters as a function of plain coordinates, so that a block of an array, a reshaped array and
  the array itself are all read by the same definitions.
-/
import Idealize.ShloMosaic.PureOps.Ideal
import Idealize.ShloMosaic.Lib.ValueIdx

noncomputable section

namespace Cert.Spec

open Idealize.ShloMosaic

/-- The word of the f32 constant 1024. -/
abbrev c1024 : EReal := Ideal.ofBits .f32 0x44800000#32
/-- The word of the f32 constant nearest 1e-5. -/
abbrev ceps : EReal := Ideal.ofBits .f32 0x3727C5AC#32

/-- The sequence row a position word selects, for a word in range (below 2048); total by reduction mod 2048. -/
def row (w : BitVec 32) : Fin 2048 := ⟨w.toNat % 2048, Nat.mod_lt _ (by norm_num)⟩

theorem row_val_of_lt {w : BitVec 32} (h : w.toNat < 2048) : (row w).val = w.toNat := Nat.mod_eq_of_lt h

section
variable (W1 : Fin 1024 → Fin 1024 → EReal) (b1 g be : Fin 1024 → EReal)

def lin (x : Fin 1024 → EReal) (k : Fin 1024) : EReal := ∑ h : Fin 1024, x h * W1 h k
def act (x : Fin 1024 → EReal) (k : Fin 1024) : EReal := max (lin W1 x k + b1 k) 0

/-! The layer normalisation of a row `a` of 1024 activations. -/
def mean (a : Fin 1024 → EReal) : EReal := Ideal.div (∑ k : Fin 1024, a k) c1024
def dev (a : Fin 1024 → EReal) (k : Fin 1024) : EReal := a k - mean a
def var (a : Fin 1024 → EReal) : EReal := Ideal.div (∑ k : Fin 1024, dev a k * dev a k) c1024
def scale (a : Fin 1024 → EReal) : EReal := Ideal.rsqrt (var a + ceps)
def ln (a : Fin 1024 → EReal) (k : Fin 1024) : EReal := dev a k * scale a * g k + be k

/-- The normalised hidden row of a sequence row `x`. -/
def hn (x : Fin 1024 → EReal) (k : Fin 1024) : EReal := ln g be (act W1 b1 x) k
/-- The projection of a normalised row onto N output columns (the whole vocabulary, or one block of it). -/
def logit {N : Nat} (W2 : Fin 1024 → Fin N → EReal) (b2 : Fin N → EReal) (h : Fin 1024 → EReal) (v : Fin N) : EReal :=
  (∑ k : Fin 1024, h k * W2 k v) + b2 v

/-- The whole head at batch entry b, slot p, vocabulary entry v, of the sequence array X and the position words. -/
def G (W2 : Fin 1024 → Fin 32000 → EReal) (b2 : Fin 32000 → EReal)
    (X : Fin 8 → Fin 2048 → Fin 1024 → EReal) (pos : Fin 8 → Fin 320 → BitVec 32)
    (b : Fin 8) (p : Fin 320) (v : Fin 32000) : EReal :=
  logit W2 b2 (hn W1 b1 g be (fun h => X b (row (pos b p)) h)) v
end

end Cert.Spec

end
-- ==== Proof.Stage1Blocks.lean ====
/-
  The first kernel's windows. Point t of the grid (one per batch entry) reads block t of the position words and of the
  sequence, the whole hidden weights and the bias, scale and shift rows. Every block is the array read at the block's
  offset: the lemmas here say so entry by entry, and name the one function of the arrays the region finds that the
  result array will hold (the normalised hidden rows).
-/
import proofs.«419608_j49538152792852_3_alg».proof.Proof.Gen.KernelIdeal.Frame
import proofs.«419608_j49538152792852_3_alg».proof.Proof.Spec
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Stage1

open Cert.KernelIdeal Cert.KernelIdeal.Gen

variable (V : (c : Dev nD) → (b : Ref sig .tc) → Buf (Elt Ideal) ((c : Thread nD τ).loc b))

/-- The arrays the region finds, each at its literal type. -/
abbrev posA (c : Dev nD) : S8x1x320.Idx → BitVec 32 := V c main_v1
abbrev seqA (c : Dev nD) : S8x2048x1024.Idx → EReal := V c main_arg0
abbrev w1A (c : Dev nD) : S1024x1024.Idx → EReal := V c main_v2
abbrev b1A (c : Dev nD) : S1x1024.Idx → EReal := V c main_v3
abbrev gA (c : Dev nD) : S1x1024.Idx → EReal := V c main_v4
abbrev beA (c : Dev nD) : S1x1024.Idx → EReal := V c main_v5

/-- The normalised hidden row of batch entry b, slot p, at hidden coordinate k, of the arrays the region finds. -/
def hrow (c : Dev nD) (b : Fin 8) (p : Fin 320) (k : Fin 1024) : EReal :=
  Cert.Spec.hn (fun h k => w1A V c (ix2 h k)) (fun k => b1A V c (ix2 0 k)) (fun k => gA V c (ix2 0 k)) (fun k => beA V c (ix2 0 k))
    (fun h => seqA V c (ix3 b (Cert.Spec.row (posA V c (ix3 b 0 p))) h)) k

/-- The result array as one function of the arrays the region finds. -/
def H (c : Dev nD) : S8x320x1024.Idx → EReal := fun i => hrow V c (i 0) (i 1) (i 2)

/-- The printed index maps over the grid: the position, sequence and result windows move with the point along axis 0,
    the weight and row windows stay at block 0. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) = t.val ∧ win0_6.index t (1 : Fin 3) = 0 ∧ win0_6.index t (2 : Fin 3) = 0 :=
  (by decide +kernel : ∀ t : Fin grid0.N, _)

/-- A block of the position words: entry (0, 0, p) of point t's block is the array at (t, 0, p). -/
theorem posBlk (c : Dev nD) (t : Fin cfg0.N) (y : S1x1x320.Idx) (k : S8x1x320.Idx)
    (h0 : (k 0).val = t.val) (h1 : (k 1).val = 0) (h2 : (k 2).val = (y 2).val) :
    (iblk0 V c 0 t : Vec Ideal S1x1x320 .i32) y = posA V c k := by
  obtain ⟨e0, e1, e2, -⟩ := idx_facts t
  unfold iblk0
  rw [View.read_apply]
  show V c main_v1 _ = V c main_v1 _
  congr 1
  funext a
  apply Fin.ext
  have y0 : (y 0).val < 1 := (y 0).isLt
  have y1 : (y 1).val < 1 := (y 1).isLt
  match a with
  | ⟨0, _⟩ => show win0_0.index t (0 : Fin 3) * 1 + 1 * (y 0).val = (k 0).val; omega
  | ⟨1, _⟩ => show win0_0.index t (1 : Fin 3) * 1 + 1 * (y 1).val = (k 1).val; omega
  | ⟨2, _⟩ => show win0_0.index t (2 : Fin 3) * 320 + 1 * (y 2).val = (k 2).val; omega

/-- A block of the sequence: entry (0, s, h) of point t's block is the array at (t, s, h). -/
theorem seqBlk (c : Dev nD) (t : Fin cfg0.N) (y : S1x2048x1024.Idx) (k : S8x2048x1024.Idx)
    (h0 : (k 0).val = t.val) (h1 : (k 1).val = (y 1).val) (h2 : (k 2).val = (y 2).val) :
    (iblk0 V c 1 t : Vec Ideal S1x2048x1024 .f32) y = seqA V c k := by
  obtain ⟨-, -, -, e0, e1, e2, -⟩ := idx_facts t
  unfold iblk0
  rw [View.read_apply]
  show V c main_arg0 _ = V c main_arg0 _
  congr 1
  funext a
  apply Fin.ext
  have y0 : (y 0).val < 1 := (y 0).isLt
  match a with
  | ⟨0, _⟩ => show win0_1.index t (0 : Fin 3) * 1 + 1 * (y 0).val = (k 0).val; omega
  | ⟨1, _⟩ => show win0_1.index t (1 : Fin 3) * 2048 + 1 * (y 1).val = (k 1).val; omega
  | ⟨2, _⟩ => show win0_1.index t (2 : Fin 3) * 1024 + 1 * (y 2).val = (k 2).val; omega

/-- The weight window's block is the whole weight array at every point. -/
theorem w1Blk (c : Dev nD) (t : Fin cfg0.N) (y : S1024x1024.Idx) :
    (iblk0 V c 2 t : Vec Ideal S1024x1024 .bf16) y = w1A V c y := by
  obtain ⟨-, -, -, -, -, -, e0, e1, -⟩ := idx_facts t
  unfold iblk0
  rw [View.read_apply]
  show V c main_v2 _ = V c main_v2 _
  congr 1
  funext a
  apply Fin.ext
  match a with
  | ⟨0, _⟩ => show win0_2.index t (0 : Fin 2) * 1024 + 1 * (y 0).val = (y 0).val; omega
  | ⟨1, _⟩ => show win0_2.index t (1 : Fin 2) * 1024 + 1 * (y 1).val = (y 1).val; omega

/-- The bias, scale and shift windows' blocks are their whole rows at every point. -/
theorem b1Blk (c : Dev nD) (t : Fin cfg0.N) (y : S1x1024.Idx) :
    (iblk0 V c 3 t : Vec Ideal S1x1024 .f32) y = b1A V c y := by
  obtain ⟨-, -, -, -, -, -, -, -, e0, e1, -⟩ := idx_facts t
  unfold iblk0
  rw [View.read_apply]
  show V c main_v3 _ = V c main_v3 _
  congr 1
  funext a
  apply Fin.ext
  match a with
  | ⟨0, _⟩ => show win0_3.index t (0 : Fin 2) * 1 + 1 * (y 0).val = (y 0).val; omega
  | ⟨1, _⟩ => show win0_3.index t (1 : Fin 2) * 1024 + 1 * (y 1).val = (y 1).val; omega
theorem gBlk (c : Dev nD) (t : Fin cfg0.N) (y : S1x1024.Idx) :
    (iblk0 V c 4 t : Vec Ideal S1x1024 .f32) y = gA V c y := by
  obtain ⟨-, -, -, -, -, -, -, -, -, -, e0, e1, -⟩ := idx_facts t
  unfold iblk0
  rw [View.read_apply]
  show V c main_v4 _ = V c main_v4 _
  congr 1
  funext a
  apply Fin.ext
  match a with
  | ⟨0, _⟩ => show win0_4.index t (0 : Fin 2) * 1 + 1 * (y 0).val = (y 0).val; omega
  | ⟨1, _⟩ => show win0_4.index t (1 : Fin 2) * 1024 + 1 * (y 1).val = (y 1).val; omega
theorem beBlk (c : Dev nD) (t : Fin cfg0.N) (y : S1x1024.Idx) :
    (iblk0 V c 5 t : Vec Ideal S1x1024 .f32) y = beA V c y := by
  obtain ⟨-, -, -, -, -, -, -, -, -, -, -, -, e0, e1, -⟩ := idx_facts t
  unfold iblk0
  rw [View.read_apply]
  show V c main_v5 _ = V c main_v5 _
  congr 1
  funext a
  apply Fin.ext
  match a with
  | ⟨0, _⟩ => show win0_5.index t (0 : Fin 2) * 1 + 1 * (y 0).val = (y 0).val; omega
  | ⟨1, _⟩ => show win0_5.index t (1 : Fin 2) * 1024 + 1 * (y 1).val = (y 1).val; omega

end Cert.KernelIdeal.Stage1

end
-- ==== Proof.LibPlainDot.lean ====
/-
  Matrix products at the ideal values, read as plain sums over one contraction coordinate.

  A product whose dimension numbers are the library's `DotDims.plain M K N` (rows × contraction times contraction × columns, no batch
  axis) is, at the result index (r, c), the sum over k : Fin K of lhs (r, k) · rhs (k, c); one whose numbers are
  `DotDims.transposedRhs M K N` (the right operand contracted on its LAST axis) is the sum over k of lhs (r, k) · rhs (c, k).
  Stated for a kernel's `tpu.matmul` into the zero accumulator and for the host's `dot_general`, at every M, K, N: a printed
  record with these six lists is one of the two by `rfl` (the well-formedness field is a proposition).
-/
import Idealize.ShloMosaic.PureOps.Ideal.Laws
import Idealize.ShloMosaic.Lib.ValueIdx

noncomputable section

namespace Cert.Lib.PlainDot

open Idealize.ShloMosaic Idealize.ShloMosaic.ValueIdx

variable (M K N : Nat)

/-! ## The operand indices of a plain product, axis by axis -/

theorem plain_lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
theorem plain_lhs_1 (i : (⟨2, ![M, N]⟩ : Shape).Idx) (q : (DotDims.plain M K N).contr.Idx) :
    ((DotDims.plain M K N).lhsIdx i q 1).val = (q ⟨0, Nat.zero_lt_one⟩).val :=
  (DotDims.plain M K N).lhsIdx_val_of_single rfl i q
theorem plain_rhs_0 (i : (⟨2, ![M, N]⟩ : Shape).Idx) (q : (DotDims.plain M K N).contr.Idx) :
    ((DotDims.plain M K N).rhsIdx i q 0).val = (q ⟨0, Nat.zero_lt_one⟩).val :=
  (DotDims.plain M K N).rhsIdx_val_of_single rfl i q
theorem plain_rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction shape of a plain product, re-indexed by the one contraction coordinate. -/
theorem plain_sum (lhs : (⟨2, ![M, K]⟩ : Shape).Idx → EReal) (rhs : (⟨2, ![K, N]⟩ : Shape).Idx → EReal)
    (i : (⟨2, ![M, N]⟩ : Shape).Idx) :
    (∑ q : (DotDims.plain M K N).contr.Idx, lhs ((DotDims.plain M K N).lhsIdx i q) * rhs ((DotDims.plain M K N).rhsIdx i q))
      = ∑ k : Fin K, lhs (ix2 (i 0) k) * rhs (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs_0 M K N _ _
      | ⟨1, _⟩ => exact (plain_lhs_1 M K N _ _).trans hk)
  have er : (DotDims.plain M K N).rhsIdx i ((contrEquiv1 (DotDims.plain M K N) K rfl rfl).symm k) = ix2 k (i 1) :=
    funext fun a => Fin.ext (by
      match a with
      | ⟨0, _⟩ => exact (plain_rhs_0 M K N _ _).trans hk
      | ⟨1, _⟩ => exact plain_rhs_1 M K N _ _)
  exact congrArg₂ (fun a b : EReal => a * b) (congrArg lhs el) (congrArg rhs er)

/-- A kernel's `tpu.matmul` with plain dimension numbers into the zero accumulator, at an index. -/
theorem matmul_plain_zero_apply {φ₁ φ₂ : FTy} (prec : Option ContractPrecision)
    (lhs : FVec Ideal ⟨2, ![M, K]⟩ φ₁) (rhs : FVec Ideal ⟨2, ![K, N]⟩ φ₂) (i : (⟨2, ![M, N]⟩ : Shape).Idx) :
    FloatOps.matmul (DotDims.plain M K N) prec lhs rhs (constant ⟨2, ![M, N]⟩ .f32 0x00000000#32) i
      = ∑ k : Fin K, lhs (ix2 (i 0) k) * rhs (ix2 k (i 1)) := by
  rw [Ideal.matmul_constant_zero_apply]
  exact plain_sum M K N lhs rhs i

/-- The host's `dot_general` with plain dimension numbers, at an index. -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (i : (⟨2, ![M, N]⟩ : Shape).Idx) :
    FloatOps.dotGeneral (DotDims.plain M K N) prec sched lhs rhs i = ∑ k : Fin K, lhs (ix2 (i 0) k) * rhs (ix2 k (i 1)) := by
  rw [Ideal.dotGeneral_apply]
  exact plain_sum M K N lhs rhs i

/-- The two at explicit coordinates (r, c): the form a proof rewrites with, free of the index's dependent coordinate types. -/
theorem matmul_plain_zero_ix2 {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, (lhs (ix2 r k) : EReal) * (rhs (ix2 k c) : EReal) :=
  matmul_plain_zero_apply M K N prec lhs rhs (ix2 r c)
theorem dotGeneral_plain_ix2 {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, (lhs (ix2 r k) : EReal) * (rhs (ix2 k c) : EReal) :=
  dotGeneral_plain_apply M K N prec sched lhs rhs (ix2 r c)

/-! ## The right operand contracted on its last axis -/

theorem transposedRhs_lhs_0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl
theorem transposedRhs_lhs_1 (i : (⟨2, ![M, N]⟩ : Shape).Idx) (q : (DotDims.transposedRhs M K N).contr.Idx) :
    ((DotDims.transposedRhs M K N).lhsIdx i q 1).val = (q ⟨0, Nat.zero_lt_one⟩).val :=
  (DotDims.transposedRhs M K N).lhsIdx_val_of_single rfl i q
theorem transposedRhs_rhs_0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl
theorem transposedRhs_rhs_1 (i : (⟨2, ![M, N]⟩ : Shape).Idx) (q : (DotDims.transposedRhs M K N).contr.Idx) :
    ((DotDims.transposedRhs M K N).rhsIdx i q 1).val = (q ⟨0, Nat.zero_lt_one⟩).val :=
  (DotDims.transposedRhs M K N).rhsIdx_val_of_single rfl i q

/-- The host's `dot_general` contracting both operands' last axes, at an index. -/
theorem dotGeneral_transposedRhs_apply {φ₁ φ₂ : FTy} (prec : Option ContractPrecision) (sched : HostSchedule)
    (lhs : FVec Ideal ⟨2, ![M, K]⟩ φ₁) (rhs : FVec Ideal ⟨2, ![N, K]⟩ φ₂) (i : (⟨2, ![M, N]⟩ : Shape).Idx) :
    FloatOps.dotGeneral (DotDims.transposedRhs M K N) prec sched lhs rhs i
      = ∑ k : Fin K, lhs (ix2 (i 0) k) * rhs (ix2 (i 1) k) := by
  rw [Ideal.dotGeneral_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx i ((contrEquiv1 (DotDims.transposedRhs M K N) K rfl rfl).symm k) = ix2 (i 0) k :=
    funext fun a => Fin.ext (by
      match a with
      | ⟨0, _⟩ => exact transposedRhs_lhs_0 M K N _ _
      | ⟨1, _⟩ => exact (transposedRhs_lhs_1 M K N _ _).trans hk)
  have er : (DotDims.transposedRhs M K N).rhsIdx i ((contrEquiv1 (DotDims.transposedRhs M K N) K rfl rfl).symm k) = ix2 (i 1) k :=
    funext fun a => Fin.ext (by
      match a with
      | ⟨0, _⟩ => exact transposedRhs_rhs_0 M K N _ _
      | ⟨1, _⟩ => exact (transposedRhs_rhs_1 M K N _ _).trans hk)
  exact congrArg₂ (fun a b : EReal => a * b) (congrArg lhs el) (congrArg rhs er)

theorem dotGeneral_transposedRhs_ix2 {φ₁ φ₂ : FTy} (prec : Option ContractPrecision) (sched : HostSchedule)
    (lhs : FVec Ideal ⟨2, ![M, K]⟩ φ₁) (rhs : FVec Ideal ⟨2, ![N, K]⟩ φ₂) (r : Fin M) (c : Fin N) :
    FloatOps.dotGeneral (DotDims.transposedRhs M K N) prec sched lhs rhs (ix2 r c)
      = ∑ k : Fin K, (lhs (ix2 r k) : EReal) * (rhs (ix2 c k) : EReal) :=
  dotGeneral_transposedRhs_apply M K N prec sched lhs rhs (ix2 r c)

end Cert.Lib.PlainDot

end
-- ==== Proof.Stage1Body.lean ====
/-
  The first kernel's body at one element.

  For a prediction slot p and a hidden coordinate k the body's output block holds the normalised hidden row, at k, of the
  sequence row the position word of slot p selects. The body builds the one-hot matrix
      onehot (p, s) = 1 if the word of s equals the position word of slot p, else 0        (p < 320, s < 2048)
  and multiplies it with the block x of the sequence: the sum over s of onehot (p, s) · x (s, h) has one surviving term when
  the position word is below 2048, namely x (row, h) for the row that word names (0 · y = 0 and 1 · y = y for every
  extended real y). The gathered row then goes through the hidden linear map Σ_h x h · W1 h k, the bias, the maximum
  with 0, the row mean (the row sum divided by the word of 1024), the deviation from it, the row variance (the sum of
  squared deviations divided by the same word), the reciprocal root of the variance plus the small word, and last the
  scale γ and the shift β. Changes of format are the identity on the extended reals, and the two words 1024 and ε are
  carried as words, never evaluated; only the zero word is read as the number 0.

  The body's value is cut into stages (the one-hot matrix, the gathered rows, the activations, the deviation, the
  normalisation), the first payload is those stages composed, and each stage is read at explicit coordinates.
-/
import proofs.«419608_j49538152792852_3_alg».proof.Proof.Gen.KernelIdeal.Frame
import proofs.«419608_j49538152792852_3_alg».proof.Proof.Spec
import proofs.«419608_j49538152792852_3_alg».proof.Proof.LibPlainDot
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Stage1

open Cert.KernelIdeal Cert.KernelIdeal.Gen Idealize.ShloMosaic Idealize.ShloMosaic.ValueIdx

/-! ## The layout operations of the body read at explicit coordinates -/

section Layout
variable {α : Type}

private theorem sc_self {s : Shape} (v : s.Idx → α) (h : s.ShapeCasts s) (j : s.Idx) : shapeCast s v h j = v j :=
  congrFun (shapeCast_self v h) j

private theorem sc_add1 {m n : Nat} (v : (⟨2, ![m, n]⟩ : Shape).Idx → α) (h : (⟨2, ![m, n]⟩ : Shape).ShapeCasts ⟨3, ![1, m, n]⟩)
    (p : Fin m) (k : Fin n) : shapeCast ⟨3, ![1, m, n]⟩ v h (ix3 0 p k) = v (ix2 p k) := by
  refine shapeCast_apply v h (ix3 0 p k) (ix2 p k) ?_
  rw [Shape.rowMajor_val_two, Shape.rowMajor_val_three]
  show p.val * n + k.val = (0 * m + p.val) * n + k.val
  simp

private theorem sc_drop1 {m n : Nat} (v : (⟨3, ![1, m, n]⟩ : Shape).Idx → α) (h : (⟨3, ![1, m, n]⟩ : Shape).ShapeCasts ⟨2, ![m, n]⟩)
    (p : Fin m) (k : Fin n) : shapeCast ⟨2, ![m, n]⟩ v h (ix2 p k) = v (ix3 0 p k) := by
  refine shapeCast_apply v h (ix2 p k) (ix3 0 p k) ?_
  rw [Shape.rowMajor_val_two, Shape.rowMajor_val_three]
  show (0 * m + p.val) * n + k.val = p.val * n + k.val
  simp

private theorem sc_113_1 {n : Nat} (v : (⟨3, ![1, 1, n]⟩ : Shape).Idx → α) (h : (⟨3, ![1, 1, n]⟩ : Shape).ShapeCasts ⟨1, ![n]⟩)
    (p : Fin n) : shapeCast ⟨1, ![n]⟩ v h (ix1 p) = v (ix3 0 0 p) := by
  refine shapeCast_apply v h (ix1 p) (ix3 0 0 p) ?_
  rw [Shape.rowMajor_val_one, Shape.rowMajor_val_three]
  show (0 * 1 + 0) * n + p.val = p.val
  simp

private theorem sc_1_col {n : Nat} (v : (⟨1, ![n]⟩ : Shape).Idx → α) (h : (⟨1, ![n]⟩ : Shape).ShapeCasts ⟨2, ![n, 1]⟩)
    (p : Fin n) : shapeCast ⟨2, ![n, 1]⟩ v h (ix2 p 0) = v (ix1 p) := by
  refine shapeCast_apply v h (ix2 p 0) (ix1 p) ?_
  rw [Shape.rowMajor_val_one, Shape.rowMajor_val_two]
  show p.val = p.val * 1 + 0
  simp

private theorem bc_row (v : S1x1024.Idx → α) (h : S1x1024.Broadcasts S320x1024) (p : Fin 320) (k : Fin 1024) :
    broadcastTo S320x1024 v h (ix2 p k) = v (ix2 0 k) :=
  broadcastTo_apply v h (ix2 p k) (ix2 0 k) fun a => by
    match a with
    | ⟨0, _⟩ => rfl
    | ⟨1, _⟩ => rfl

private theorem bc_col (v : S320x1.Idx → α) (h : S320x1.Broadcasts S320x1024) (p : Fin 320) (k : Fin 1024) :
    broadcastTo S320x1024 v h (ix2 p k) = v (ix2 p 0) :=
  broadcastTo_apply v h (ix2 p k) (ix2 p 0) fun a => by
    match a with
    | ⟨0, _⟩ => rfl
    | ⟨1, _⟩ => rfl

private theorem bc_col2048 (v : S320x1.Idx → α) (h : S320x1.Broadcasts S320x2048) (p : Fin 320) (s : Fin 2048) :
    broadcastTo S320x2048 v h (ix2 p s) = v (ix2 p 0) :=
  broadcastTo_apply v h (ix2 p s) (ix2 p 0) fun a => by
    match a with
    | ⟨0, _⟩ => rfl
    | ⟨1, _⟩ => rfl

end Layout

/-! ## The body's value, cut into stages -/

/-- The one-hot matrix: at (p, s) the word comparison "s equals the position word of slot p", widened and converted. -/
def oneHot (v0 : Vec Ideal S1x1x320 .i32) : FVec Ideal S320x2048 .bf16 :=
  truncf .bf16 (sitofp .f32 (extui 32 (cmpi .eq (iota .tc S320x2048 32 [1] iota_S320x2048_d1_w32)
    (broadcastTo S320x2048 (shapeCast S320x1 (shapeCast S320 (shapeCast S1x1x320 v0 shapeCasts_S1x1x320_S1x1x320)
      shapeCasts_S1x1x320_S320) shapeCasts_S320_S320x1) broadcasts_S320x1_S320x2048)) natLt_1_32)) bitsLt_bf16_f32

/-- The one-hot matrix times the block of the sequence: the gathered rows. -/
def gathered (v0 : Vec Ideal S1x1x320 .i32) (v10 : Vec Ideal S1x2048x1024 .f32) : FVec Ideal S320x1024 .f32 :=
  matmul dot_S320x2048_S2048x1024_S320x1024_1_0_0_1_n_n none (oneHot v0)
    (truncf .bf16 (shapeCast S2048x1024 v10 shapeCasts_S1x2048x1024_S2048x1024 : FVec Ideal S2048x1024 .f32) bitsLt_bf16_f32)
    (constant S320x1024 .f32 0x00000000#32)

/-- The hidden linear map, the bias and the rectifier. -/
def actV (g : FVec Ideal S320x1024 .f32) (v14 : Vec Ideal S1024x1024 .bf16) (v18 : Vec Ideal S1x1024 .f32) :
    FVec Ideal S320x1024 .f32 :=
  maximumf
    (addf
      (matmul dot_S320x1024_S1024x1024_S320x1024_1_0_0_1_n_n none (truncf .bf16 g bitsLt_bf16_f32)
        (shapeCast S1024x1024 v14 shapeCasts_S1024x1024_S1024x1024 : FVec Ideal S1024x1024 .bf16) (constant S320x1024 .f32 0x00000000#32))
      (broadcastTo S320x1024 (shapeCast S1x1024 v18 shapeCasts_S1x1024_S1x1024) broadcasts_S1x1024_S320x1024))
    (broadcast S320x1024 (Scalar.ofBits (F := Ideal) .f32 0x00000000#32))

/-- The row sums divided by the word of 1024, as a column. -/
def meanCol (a : FVec Ideal S320x1024 .f32) : FVec Ideal S320x1 .f32 :=
  divf (shapeCast S320x1 (multiReduction (F := Ideal) .add [1] S320 a 0x00000000#32 reduces_S320x1024_S320 (.inl rfl) rfl)
      shapeCasts_S320_S320x1)
    (broadcast S320x1 (Scalar.ofBits (F := Ideal) .f32 0x44800000#32))

/-- The deviation from the row mean. -/
def devV (a : FVec Ideal S320x1024 .f32) : FVec Ideal S320x1024 .f32 :=
  subf a (broadcastTo S320x1024 (meanCol a) broadcasts_S320x1_S320x1024)

/-- The deviation scaled by the reciprocal root of the row variance plus the small word. -/
def normV (d : FVec Ideal S320x1024 .f32) : FVec Ideal S320x1024 .f32 :=
  mulf d (broadcastTo S320x1024
    (rsqrt (addf (meanCol (mulf d d)) (broadcast S320x1 (Scalar.ofBits (F := Ideal) .f32 0x3727C5AC#32))))
    broadcasts_S320x1_S320x1024)

theorem k0_pay2_eq (v0 : Vec Ideal S1x1x320 .i32) (v10 : Vec Ideal S1x2048x1024 .f32) (v14 : Vec Ideal S1024x1024 .bf16)
    (v18 : Vec Ideal S1x1024 .f32) :
    k0_pay2 (F := Ideal) v0 v10 v14 v18 = normV (devV (actV (gathered v0 v10) v14 v18)) := rfl

/-! ## Each stage read at an element -/

/-- The converted comparison of two words: 1 where they are equal, 0 elsewhere. -/
private theorem hot_word (a b : BitVec 32) :
    ((((IntOp.cmpi .eq a b).setWidth 32).toInt : ℝ) : EReal) = if a = b then 1 else 0 := by
  unfold IntOp.cmpi
  by_cases h : a = b
  · subst h; simp
  · have hb : (a == b) = false := beq_eq_false_iff_ne.mpr h
    rw [hb]; simp [h]

theorem oneHot_apply (v0 : Vec Ideal S1x1x320 .i32) (p : Fin 320) (s : Fin 2048) :
    oneHot v0 (ix2 p s) = if BitVec.ofNat 32 s.val = v0 (ix3 0 0 p) then (1 : EReal) else 0 := by
  have e1 : iota .tc S320x2048 32 [1] iota_S320x2048_d1_w32 (ix2 p s) = BitVec.ofNat 32 s.val :=
    iota_single_apply .tc S320x2048 32 1 _ (ix2 p s)
  have e2 : broadcastTo S320x2048 (shapeCast S320x1 (shapeCast S320 (shapeCast S1x1x320 v0 shapeCasts_S1x1x320_S1x1x320)
      shapeCasts_S1x1x320_S320) shapeCasts_S320_S320x1) broadcasts_S320x1_S320x2048 (ix2 p s) = v0 (ix3 0 0 p) :=
    (bc_col2048 _ _ p s).trans ((sc_1_col _ _ p).trans ((sc_113_1 _ _ p).trans (sc_self _ _ _)))
  unfold oneHot
  show ((((IntOp.cmpi .eq (iota .tc S320x2048 32 [1] iota_S320x2048_d1_w32 (ix2 p s))
    (broadcastTo S320x2048 (shapeCast S320x1 (shapeCast S320 (shapeCast S1x1x320 v0 shapeCasts_S1x1x320_S1x1x320)
      shapeCasts_S1x1x320_S320) shapeCasts_S320_S320x1) broadcasts_S320x1_S320x2048 (ix2 p s))).setWidth 32).toInt : ℝ) : EReal) = _
  rw [e1, e2]
  exact hot_word _ _

/-- A word below 2048 is the word of its own row number. -/
theorem ofNat_eq_iff_row {w : BitVec 32} (hw : w.toNat < 2048) (s : Fin 2048) :
    BitVec.ofNat 32 s.val = w ↔ s = Cert.Spec.row w := by
  constructor
  · intro h
    apply Fin.ext
    rw [Cert.Spec.row_val_of_lt hw, ← h, BitVec.toNat_ofNat]
    have := s.isLt
    omega
  · intro h
    subst h
    apply BitVec.eq_of_toNat_eq
    rw [BitVec.toNat_ofNat, Cert.Spec.row_val_of_lt hw]
    omega

/-- The one-hot product picks the row the position word names: one term of the sum survives. -/
theorem gathered_apply (v0 : Vec Ideal S1x1x320 .i32) (v10 : Vec Ideal S1x2048x1024 .f32) (p : Fin 320)
    (hw : (v0 (ix3 0 0 p)).toNat < 2048) (h : Fin 1024) :
    gathered v0 v10 (ix2 p h) = v10 (ix3 0 (Cert.Spec.row (v0 (ix3 0 0 p))) h) := by
  unfold gathered
  refine (Cert.Lib.PlainDot.matmul_plain_zero_ix2 320 2048 1024 none _ _ p h).trans ?_
  rw [Finset.sum_eq_single (Cert.Spec.row (v0 (ix3 0 0 p)))]
  · rw [oneHot_apply, if_pos ((ofNat_eq_iff_row hw _).mpr rfl), one_mul]
    exact sc_drop1 _ _ _ h
  · intro s _ hs
    rw [oneHot_apply, if_neg (fun e => hs ((ofNat_eq_iff_row hw s).mp e)), zero_mul]
  · intro hn; exact absurd (Finset.mem_univ _) hn

theorem actV_apply (g : FVec Ideal S320x1024 .f32) (v14 : Vec Ideal S1024x1024 .bf16) (v18 : Vec Ideal S1x1024 .f32)
    (p : Fin 320) (k : Fin 1024) :
    actV g v14 v18 (ix2 p k)
      = Cert.Spec.act (fun h k => v14 (ix2 h k)) (fun k => v18 (ix2 0 k)) (fun h => g (ix2 p h)) k := by
  unfold actV Cert.Spec.act Cert.Spec.lin
  show max (matmul dot_S320x1024_S1024x1024_S320x1024_1_0_0_1_n_n none (truncf .bf16 g bitsLt_bf16_f32)
        (shapeCast S1024x1024 v14 shapeCasts_S1024x1024_S1024x1024 : FVec Ideal S1024x1024 .bf16) (constant S320x1024 .f32 0x00000000#32) (ix2 p k)
      + broadcastTo S320x1024 (shapeCast S1x1024 v18 shapeCasts_S1x1024_S1x1024) broadcasts_S1x1024_S320x1024 (ix2 p k))
      (Ideal.ofBits .f32 0x00000000#32) = _
  rw [Ideal.ofBits_zero_f32, bc_row, sc_self]
  refine congrArg (fun t : EReal => max (t + v18 (ix2 0 k)) 0) ?_
  refine (Cert.Lib.PlainDot.matmul_plain_zero_ix2 320 1024 1024 none _ _ p k).trans ?_
  refine Finset.sum_congr rfl fun h _ => ?_
  exact congrArg (fun t : EReal => g (ix2 p h) * t) (sc_self _ _ _)

theorem rowsum_apply (a : FVec Ideal S320x1024 .f32) (p : Fin 320) :
    multiReduction (F := Ideal) .add [1] S320 a 0x00000000#32 reduces_S320x1024_S320 (.inl rfl) rfl (ix1 p)
      = ∑ k : Fin 1024, a (ix2 p k) := by
  refine (Ideal.multiReduction_add_single a _ reduces_S320x1024_S320 (.inl rfl) rfl (ix1 p)).trans ?_
  refine Finset.sum_congr rfl fun k _ => congrArg a ?_
  funext c
  match c with
  | ⟨0, _⟩ => rfl
  | ⟨1, _⟩ => rfl

theorem meanCol_apply (a : FVec Ideal S320x1024 .f32) (p : Fin 320) :
    meanCol a (ix2 p 0) = Ideal.div (∑ k : Fin 1024, a (ix2 p k)) Cert.Spec.c1024 := by
  unfold meanCol
  show Ideal.div (shapeCast S320x1 (multiReduction (F := Ideal) .add [1] S320 a 0x00000000#32 reduces_S320x1024_S320 (.inl rfl) rfl)
      shapeCasts_S320_S320x1 (ix2 p 0)) (Ideal.ofBits .f32 0x44800000#32) = _
  rw [sc_1_col, rowsum_apply]

theorem devV_apply (a : FVec Ideal S320x1024 .f32) (p : Fin 320) (k : Fin 1024) :
    devV a (ix2 p k) = Cert.Spec.dev (fun k => a (ix2 p k)) k := by
  unfold devV Cert.Spec.dev Cert.Spec.mean
  show a (ix2 p k) - broadcastTo S320x1024 (meanCol a) broadcasts_S320x1_S320x1024 (ix2 p k) = _
  rw [bc_col, meanCol_apply]

theorem normV_apply (d : FVec Ideal S320x1024 .f32) (p : Fin 320) (k : Fin 1024) :
    normV d (ix2 p k)
      = d (ix2 p k) * Ideal.rsqrt (Ideal.div (∑ j : Fin 1024, d (ix2 p j) * d (ix2 p j)) Cert.Spec.c1024 + Cert.Spec.ceps) := by
  unfold normV
  show d (ix2 p k) * broadcastTo S320x1024
    (rsqrt (addf (meanCol (mulf d d)) (broadcast S320x1 (Scalar.ofBits (F := Ideal) .f32 0x3727C5AC#32))))
    broadcasts_S320x1_S320x1024 (ix2 p k) = _
  rw [bc_col]
  show d (ix2 p k) * Ideal.rsqrt (meanCol (mulf d d) (ix2 p 0) + Ideal.ofBits .f32 0x3727C5AC#32) = _
  rw [meanCol_apply]
  rfl

/-! ## The two payloads at an element, and the output block -/

/-- The first payload: the normalised deviation of the activations of the gathered row. -/
theorem k0_pay2_apply (v0 : Vec Ideal S1x1x320 .i32) (v10 : Vec Ideal S1x2048x1024 .f32) (v14 : Vec Ideal S1024x1024 .bf16)
    (v18 : Vec Ideal S1x1024 .f32) (p : Fin 320) (hw : (v0 (ix3 0 0 p)).toNat < 2048) (k : Fin 1024) :
    k0_pay2 (F := Ideal) v0 v10 v14 v18 (ix2 p k)
      = Cert.Spec.dev (Cert.Spec.act (fun h k => v14 (ix2 h k)) (fun k => v18 (ix2 0 k))
            (fun h => v10 (ix3 0 (Cert.Spec.row (v0 (ix3 0 0 p))) h))) k
          * Cert.Spec.scale (Cert.Spec.act (fun h k => v14 (ix2 h k)) (fun k => v18 (ix2 0 k))
            (fun h => v10 (ix3 0 (Cert.Spec.row (v0 (ix3 0 0 p))) h))) := by
  have ha : (fun j => actV (gathered v0 v10) v14 v18 (ix2 p j))
      = Cert.Spec.act (fun h k => v14 (ix2 h k)) (fun k => v18 (ix2 0 k))
          (fun h => v10 (ix3 0 (Cert.Spec.row (v0 (ix3 0 0 p))) h)) := by
    funext j
    rw [actV_apply]
    exact congrArg (fun x => Cert.Spec.act _ _ x j) (funext fun h => gathered_apply v0 v10 p hw h)
  have hd : ∀ j, devV (actV (gathered v0 v10) v14 v18) (ix2 p j)
      = Cert.Spec.dev (Cert.Spec.act (fun h k => v14 (ix2 h k)) (fun k => v18 (ix2 0 k))
          (fun h => v10 (ix3 0 (Cert.Spec.row (v0 (ix3 0 0 p))) h))) j := fun j => by
    rw [devV_apply, ha]
  rw [k0_pay2_eq, normV_apply]
  simp only [hd]
  rfl

/-- The second payload: scale by γ and shift by β. -/
theorem k0_pay1_apply (v39 : FVec Ideal S320x1024 .f32) (v40 v44 : Vec Ideal S1x1024 .f32) (p : Fin 320) (k : Fin 1024) :
    k0_pay1 (F := Ideal) v39 v40 v44 (ix3 0 p k) = v39 (ix2 p k) * v40 (ix2 0 k) + v44 (ix2 0 k) := by
  unfold k0_pay1
  refine (sc_add1 _ _ p k).trans ?_
  show v39 (ix2 p k)
      * broadcastTo S320x1024 (shapeCast S1x1024 v40 shapeCasts_S1x1024_S1x1024) broadcasts_S1x1024_S320x1024 (ix2 p k)
      + broadcastTo S320x1024 (shapeCast S1x1024 v44 shapeCasts_S1x1024_S1x1024) broadcasts_S1x1024_S320x1024 (ix2 p k) = _
  rw [bc_row, bc_row, sc_self, sc_self]

private theorem zeros2 : (![0, 0] : Fin 2 → Nat) = fun _ => 0 := by
  funext a
  match a with
  | ⟨0, _⟩ => rfl
  | ⟨1, _⟩ => rfl

private theorem zeros3 : (![0, 0, 0] : Fin 3 → Nat) = fun _ => 0 := by
  funext a
  match a with
  | ⟨0, _⟩ => rfl
  | ⟨1, _⟩ => rfl
  | ⟨2, _⟩ => rfl

/-- The output block of the first kernel at slot p, hidden coordinate k: the normalised hidden row of the sequence row
    the position word of slot p selects. -/
theorem out0_6_apply (x0 : Vec Ideal S1x1x320 .i32) (x1 : Vec Ideal S1x2048x1024 .f32) (x2 : Vec Ideal S1024x1024 .bf16)
    (x3 x4 x5 : Vec Ideal S1x1024 .f32) (hr : ∀ p : Fin 320, (x0 (ix3 0 0 p)).toNat < 2048) (p : Fin 320) (k : Fin 1024) :
    out0_6 (F := Ideal) x0 x1 x2 x3 x4 x5 (ix3 0 p k)
      = Cert.Spec.hn (fun h k => x2 (ix2 h k)) (fun k => x3 (ix2 0 k)) (fun k => x4 (ix2 0 k)) (fun k => x5 (ix2 0 k))
          (fun h => x1 (ix3 0 (Cert.Spec.row (x0 (ix3 0 0 p))) h)) k := by
  unfold out0_6
  rw [View.canon_unit_zero zeros3, View.ld_unit_zero (S := S1x1x320) zeros3, View.ld_unit_zero (S := S1x2048x1024) zeros3,
    View.ld_unit_zero (S := S1024x1024) zeros2, View.ld_unit_zero (S := S1x1024) zeros2,
    View.ld_unit_zero (S := S1x1024) zeros2, View.ld_unit_zero (S := S1x1024) zeros2]
  rw [k0_pay1_apply, k0_pay2_apply x0 x1 x2 x3 p (hr p) k]
  rfl

end Cert.KernelIdeal.Stage1

end
-- ==== Proof.Stage1Array.lean ====
/-
  The first kernel's result array. What point t leaves in the result window's buffer is, entry by entry, the normalised
  hidden rows of batch entry t: the body's value at one element, with every input block read as its array at the
  block's offset. So what point t writes back is block t of ONE function of the arrays the region finds, and the
  eight blocks tile the result.
-/
import proofs.«419608_j49538152792852_3_alg».proof.Proof.Stage1Blocks
import proofs.«419608_j49538152792852_3_alg».proof.Proof.Stage1Body

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Stage1

open Cert.KernelIdeal Cert.KernelIdeal.Gen

variable (V : (c : Dev nD) → (b : Ref sig .tc) → Buf (Elt Ideal) ((c : Thread nD τ).loc b))

/-- What point t leaves in the result window's buffer, entry by entry: the normalised hidden rows of batch entry t. -/
theorem out_at (c : Dev nD) (hr : ∀ (b : Fin 8) (p : Fin 320), (posA V c (ix3 b 0 p)).toNat < 2048) (t : Fin cfg0.N)
    (j : S1x320x1024.Idx) :
    out0_6 (F := Ideal) (iblk0 V c 0 t) (iblk0 V c 1 t) (iblk0 V c 2 t) (iblk0 V c 3 t) (iblk0 V c 4 t) (iblk0 V c 5 t) j
      = H V c (((cfg0.win 6).blk t).view.emb j) := by
  obtain ⟨z, p, k, rfl⟩ : ∃ (z : Fin 1) (p : Fin 320) (k : Fin 1024), j = ix3 z p k := ⟨j 0, j 1, j 2, eq_ix3 j⟩
  obtain rfl : z = 0 := Subsingleton.elim _ _
  have hN : cfg0.N = 8 := N_0
  have ht : t.val < 8 := by have := t.isLt; omega
  obtain ⟨-, -, -, -, -, -, -, -, -, -, -, -, -, -, e0, e1, e2⟩ := idx_facts t
  have he : ((cfg0.win 6).blk t).view.emb (ix3 (0 : Fin 1) p k) = (ix3 (⟨t.val, ht⟩ : Fin 8) p k : S8x320x1024.Idx) := by
    funext a
    apply Fin.ext
    match a with
    | ⟨0, _⟩ => show win0_6.index t (0 : Fin 3) * 1 + 1 * 0 = t.val; omega
    | ⟨1, _⟩ => show win0_6.index t (1 : Fin 3) * 320 + 1 * p.val = p.val; omega
    | ⟨2, _⟩ => show win0_6.index t (2 : Fin 3) * 1024 + 1 * k.val = k.val; omega
  have hp : ∀ q : Fin 320, (iblk0 V c 0 t : Vec Ideal S1x1x320 .i32) (ix3 0 0 q) = posA V c (ix3 (⟨t.val, ht⟩ : Fin 8) 0 q) :=
    fun q => posBlk V c t _ _ rfl rfl rfl
  have hs : ∀ (r : Fin 2048) (h : Fin 1024),
      (iblk0 V c 1 t : Vec Ideal S1x2048x1024 .f32) (ix3 0 r h) = seqA V c (ix3 (⟨t.val, ht⟩ : Fin 8) r h) :=
    fun r h => seqBlk V c t _ _ rfl rfl rfl
  refine (out0_6_apply (iblk0 V c 0 t) (iblk0 V c 1 t) (iblk0 V c 2 t) (iblk0 V c 3 t) (iblk0 V c 4 t) (iblk0 V c 5 t)
    (fun q => by rw [hp q]; exact hr _ q) p k).trans ?_
  rw [he]
  show _ = hrow V c (⟨t.val, ht⟩ : Fin 8) p k
  unfold hrow
  simp only [hp, hs, w1Blk, b1Blk, gBlk, beBlk]

/-- What point t writes back is block t of the one function H of the arrays the region finds. -/
theorem flushed_eq (c : Dev nD) (hr : ∀ (b : Fin 8) (p : Fin 320), (posA V c (ix3 b 0 p)).toNat < 2048) (t : Fin cfg0.N) :
    (dat0 V c).flushed 6 t = ((cfg0.win 6).blk t).view.read (Elt Ideal) (H V c) := by
  show (cfg0.win 6).cut (grid0.coords t) ((dat0 V c).after 6 t) = _
  rw [after0_6]
  funext j
  exact out_at V c hr t j

/-- An index of the result array is in point t's block iff each coordinate is in the block's range on its axis. -/
theorem mem_blk (t : Fin cfg0.N) (i : S8x320x1024.Idx) :
    i ∈ ((cfg0.win 6).blk t).view.set ↔ ∀ a : Fin 3, win0_6.index t a * S1x320x1024.size a ≤ (i a).val
      ∧ (i a).val < win0_6.index t a * S1x320x1024.size a + S1x320x1024.size a := by
  show i ∈ ((View.whole main_v6).slice (win0_6.rect t)).set ↔ _
  rw [View.set_slice_whole, Rect.mem_set_unit]
  exact Iff.rfl

/-- The eight blocks tile the result array: the index (b, p, k) lies in point b's block. -/
theorem cover (i : S8x320x1024.Idx) : ∃ t : Fin cfg0.N, (cfg0.win 6).flush t = true ∧ i ∈ ((cfg0.win 6).blk t).view.set := by
  have hN : cfg0.N = 8 := N_0
  have i0 : (i 0).val < 8 := (i 0).isLt
  have i1 : (i 1).val < 320 := (i 1).isLt
  have i2 : (i 2).val < 1024 := (i 2).isLt
  obtain ⟨t, htv⟩ : ∃ t : Fin cfg0.N, t.val = (i 0).val := ⟨⟨(i 0).val, by omega⟩, rfl⟩
  refine ⟨t, flush0_6 t, ?_⟩
  rw [mem_blk]
  obtain ⟨-, -, -, -, -, -, -, -, -, -, -, -, -, -, e0, e1, e2⟩ := idx_facts t
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 320 ≤ (i 1).val ∧ (i 1).val < win0_6.index t (1 : Fin 3) * 320 + 320; omega
  | ⟨2, _⟩ => show win0_6.index t (2 : Fin 3) * 1024 ≤ (i 2).val ∧ (i 2).val < win0_6.index t (2 : Fin 3) * 1024 + 1024; omega

/-- The result array after the region: the normalised hidden rows, as one function of the arrays the region finds. -/
theorem final (c : Dev nD) (hr : ∀ (b : Fin 8) (p : Fin 320), (posA V c (ix3 b 0 p)).toNat < 2048) :
    (dat0 V c).arrAt 6 cfg0.N = H V c :=
  (dat0 V c).arrAt_eq_of_cover 6 (H V c) (fun t _ => flushed_eq V c hr t) cover

end Cert.KernelIdeal.Stage1

end
-- ==== Proof.Stage2Body.lean ====
/-
  The second kernel's body at one element.

  The body loads its three whole staging buffers — a block x0 of 2560 normalised hidden rows (1024 wide), a block x1
  of 256 columns of the projection matrix, and the matching block x2 of the bias as one row — and stores
  once, through the whole rectangle, the matrix product of x0 and x1 into the zero accumulator plus the bias
  row laid down every row.  At Ideal the narrowing of x1 is the identity and the product at (r, j) is the sum over
  the contraction coordinate, so what the body leaves at (r, j) is
      (Σ_k x0 (r, k) · x1 (k, j)) + x2 (0, j),
  which is the specification's projection `logit` of the row x0 (r, ·) onto the block's 256 columns.
-/
import proofs.«419608_j49538152792852_3_alg».proof.Proof.Gen.KernelIdeal.Frame
import proofs.«419608_j49538152792852_3_alg».proof.Proof.Spec
import proofs.«419608_j49538152792852_3_alg».proof.Proof.LibPlainDot
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Stage2

open Cert.KernelIdeal Cert.KernelIdeal.Gen Idealize.ShloMosaic Idealize.ShloMosaic.ValueIdx

/-- The whole-buffer rectangle's offsets are zero. -/
theorem off0 : (![0, 0] : Fin 2 → ℕ) = fun _ => 0 := funext fun a => by fin_cases a <;> rfl

/-- What the body leaves in the output buffer is its one payload of the three input buffers: one store through the
    whole rectangle leaves its payload, and a load through the whole rectangle reads the buffer. -/
theorem out1_3_eq (x0 : Vec Ideal S2560x1024 .bf16) (x1 : Vec Ideal S1024x256 .f32) (x2 : Vec Ideal S1x256 .f32) :
    out1_3 (F := Ideal) x0 x1 x2 = k1_pay1 x0 x1 x2 := by
  unfold out1_3
  rw [View.canon_unit_zero off0, View.ld_unit_zero off0, View.ld_unit_zero off0, View.ld_unit_zero off0]

/-- The printed dimension numbers of the product are the plain ones: rows × contraction times contraction × columns. -/
theorem dot_eq_plain : dot_S2560x1024_S1024x256_S2560x256_1_0_0_1_n_n = DotDims.plain 2560 1024 256 := rfl

/-- The bias row laid down every row reads, at (r, j), the row at (0, j). -/
theorem bias_apply (x2 : Vec Ideal S1x256 .f32) (r : Fin 2560) (j : Fin 256) :
    (broadcastTo S2560x256 (shapeCast S1x256 (x2 : FVec Ideal S1x256 .f32) shapeCasts_S1x256_S1x256)
        broadcasts_S1x256_S2560x256 (ix2 r j) : EReal) = x2 (ix2 0 j) := by
  rw [shapeCast_self]
  refine broadcastTo_apply x2 broadcasts_S1x256_S2560x256 (ix2 r j) (ix2 0 j) (fun a => ?_)
  fin_cases a <;> rfl

/-- The product at (r, j): the sum over the contraction coordinate of the row of x0 times the column of x1. -/
theorem prod_apply (x0 : Vec Ideal S2560x1024 .bf16) (x1 : Vec Ideal S1024x256 .f32) (r : Fin 2560) (j : Fin 256) :
    (FloatOps.matmul (F := Ideal) (φ₁ := .bf16) (φ₂ := .bf16) dot_S2560x1024_S1024x256_S2560x256_1_0_0_1_n_n none
        (shapeCast S2560x1024 (x0 : FVec Ideal S2560x1024 .bf16) shapeCasts_S2560x1024_S2560x1024)
        (truncf (F := Ideal) .bf16 (x1 : FVec Ideal S1024x256 .f32) bitsLt_bf16_f32)
        (constant (F := Ideal) S2560x256 .f32 0x00000000#32) (ix2 r j) : EReal)
      = ∑ k : Fin 1024, (x0 (ix2 r k) : EReal) * (x1 (ix2 k j) : EReal) := by
  rw [shapeCast_self, dot_eq_plain]
  exact Cert.Lib.PlainDot.matmul_plain_zero_ix2 (φ₁ := .bf16) (φ₂ := .bf16) 2560 1024 256 none (x0 : FVec Ideal S2560x1024 .bf16)
    (truncf (F := Ideal) .bf16 (x1 : FVec Ideal S1024x256 .f32) bitsLt_bf16_f32) r j

/-- The payload at (r, j). -/
theorem k1_pay1_apply (x0 : Vec Ideal S2560x1024 .bf16) (x1 : Vec Ideal S1024x256 .f32) (x2 : Vec Ideal S1x256 .f32)
    (r : Fin 2560) (j : Fin 256) :
    k1_pay1 (F := Ideal) x0 x1 x2 (ix2 r j)
      = (∑ k : Fin 1024, (x0 (ix2 r k) : EReal) * (x1 (ix2 k j) : EReal)) + (x2 (ix2 0 j) : EReal) := by
  unfold k1_pay1
  exact congrArg₂ (fun a b : EReal => a + b) (prod_apply x0 x1 r j) (bias_apply x2 r j)

/-- What the body leaves at (r, j) is the specification's projection of the row x0 (r, ·) onto the block's columns. -/
theorem out1_3_apply (x0 : Vec Ideal S2560x1024 .bf16) (x1 : Vec Ideal S1024x256 .f32) (x2 : Vec Ideal S1x256 .f32) (r : Fin 2560) (j : Fin 256) :
    out1_3 (F := Ideal) x0 x1 x2 (ix2 r j)
      = Cert.Spec.logit (fun k j => x1 (ix2 k j)) (fun j => x2 (ix2 0 j)) (fun k => x0 (ix2 r k)) j := by
  rw [out1_3_eq, k1_pay1_apply]
  rfl

end Cert.KernelIdeal.Stage2

end
-- ==== Proof.Stage2Array.lean ====
/-
  The second kernel's result array. Point t of the grid (one per block of 256 vocabulary columns) reads the whole array
  of normalised hidden rows, block t of the projection weights' columns and of the bias, and writes back block t of the
  logits' columns. Every block is the array read at the block's offset, so what point t writes back is block t of ONE
  function of the arrays as the region finds them, and the 125 column blocks tile the result.
-/
import proofs.«419608_j49538152792852_3_alg».proof.Proof.Gen.KernelIdeal.Frame
import proofs.«419608_j49538152792852_3_alg».proof.Proof.Spec
import proofs.«419608_j49538152792852_3_alg».proof.Proof.Stage2Body
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Stage2

open Cert.KernelIdeal Cert.KernelIdeal.Gen

variable (V : (c : Dev nD) → (b : Ref sig .tc) → Buf (Elt Ideal) ((c : Thread nD τ).loc b))

/-- The arrays the region finds, each at its literal type. -/
abbrev hA (c : Dev nD) : S2560x1024.Idx → EReal := V c main_v7
abbrev w2A (c : Dev nD) : S1024x32000.Idx → EReal := V c main_arg6
abbrev b2A (c : Dev nD) : S1x32000.Idx → EReal := V c main_v8

/-- The logit of row r at vocabulary column v, of the arrays the region finds. -/
def lrow (c : Dev nD) (r : Fin 2560) (v : Fin 32000) : EReal :=
  Cert.Spec.logit (fun k v => w2A V c (ix2 k v)) (fun v => b2A V c (ix2 0 v)) (fun k => hA V c (ix2 r k)) v

/-- The result array as one function of the arrays the region finds. -/
def O (c : Dev nD) : S2560x32000.Idx → EReal := fun i => lrow V c (i 0) (i 1)

/-- The printed index maps over the grid: the hidden rows' window stays at block 0, the weights', the bias's and the
    result's windows move with the point along the column axis. -/
theorem idx_facts : ∀ t : Fin cfg1.N,
    win1_0.index t (0 : Fin 2) = 0 ∧ win1_0.index t (1 : Fin 2) = 0
    ∧ win1_1.index t (0 : Fin 2) = 0 ∧ win1_1.index t (1 : Fin 2) = t.val
    ∧ win1_2.index t (0 : Fin 2) = 0 ∧ win1_2.index t (1 : Fin 2) = t.val
    ∧ win1_3.index t (0 : Fin 2) = 0 ∧ win1_3.index t (1 : Fin 2) = t.val :=
  (by decide +kernel : ∀ t : Fin grid1.N, _)

/-- The hidden rows' block is the whole array at every point. -/
theorem hBlk (c : Dev nD) (t : Fin cfg1.N) (y : S2560x1024.Idx) :
    (iblk1 V c 0 t : Vec Ideal S2560x1024 .bf16) y = hA V c y := by
  obtain ⟨e0, e1, -⟩ := idx_facts t
  unfold iblk1
  rw [View.read_apply]
  show V c main_v7 _ = V c main_v7 _
  congr 1
  funext a
  apply Fin.ext
  match a with
  | ⟨0, _⟩ => show win1_0.index t (0 : Fin 2) * 2560 + 1 * (y 0).val = (y 0).val; omega
  | ⟨1, _⟩ => show win1_0.index t (1 : Fin 2) * 1024 + 1 * (y 1).val = (y 1).val; omega

/-- A block of the weights: entry (k, j) of point t's block is the array at (k, 256 t + j). -/
theorem w2Blk (c : Dev nD) (t : Fin cfg1.N) (y : S1024x256.Idx) (k : S1024x32000.Idx)
    (h0 : (k 0).val = (y 0).val) (h1 : (k 1).val = 256 * t.val + (y 1).val) :
    (iblk1 V c 1 t : Vec Ideal S1024x256 .f32) y = w2A V c k := by
  obtain ⟨-, -, e0, e1, -⟩ := idx_facts t
  unfold iblk1
  rw [View.read_apply]
  show V c main_arg6 _ = V c main_arg6 _
  congr 1
  funext a
  apply Fin.ext
  match a with
  | ⟨0, _⟩ => show win1_1.index t (0 : Fin 2) * 1024 + 1 * (y 0).val = (k 0).val; omega
  | ⟨1, _⟩ => show win1_1.index t (1 : Fin 2) * 256 + 1 * (y 1).val = (k 1).val; omega

/-- A block of the bias row: entry (0, j) of point t's block is the row at (0, 256 t + j). -/
theorem b2Blk (c : Dev nD) (t : Fin cfg1.N) (y : S1x256.Idx) (k : S1x32000.Idx)
    (h0 : (k 0).val = (y 0).val) (h1 : (k 1).val = 256 * t.val + (y 1).val) :
    (iblk1 V c 2 t : Vec Ideal S1x256 .f32) y = b2A V c k := by
  obtain ⟨-, -, -, -, e0, e1, -⟩ := idx_facts t
  unfold iblk1
  rw [View.read_apply]
  show V c main_v8 _ = V c main_v8 _
  congr 1
  funext a
  apply Fin.ext
  match a with
  | ⟨0, _⟩ => show win1_2.index t (0 : Fin 2) * 1 + 1 * (y 0).val = (k 0).val; omega
  | ⟨1, _⟩ => show win1_2.index t (1 : Fin 2) * 256 + 1 * (y 1).val = (k 1).val; omega

/-- What point t leaves in the result window's buffer, entry by entry: the logits of every row at columns 256 t .. 256 t + 255. -/
theorem out_at (c : Dev nD) (t : Fin cfg1.N) (y : S2560x256.Idx) :
    out1_3 (F := Ideal) (iblk1 V c 0 t) (iblk1 V c 1 t) (iblk1 V c 2 t) y = O V c (((cfg1.win 3).blk t).view.emb y) := by
  obtain ⟨r, j, rfl⟩ : ∃ (r : Fin 2560) (j : Fin 256), y = ix2 r j := ⟨y 0, y 1, eq_ix2 y⟩
  have hN : cfg1.N = 125 := N_1
  have ht : t.val < 125 := by have := t.isLt; omega
  have hv : 256 * t.val + j.val < 32000 := by have := j.isLt; omega
  obtain ⟨-, -, -, -, -, -, e0, e1⟩ := idx_facts t
  have he : ((cfg1.win 3).blk t).view.emb (ix2 r j) = (ix2 r (⟨256 * t.val + j.val, hv⟩ : Fin 32000) : S2560x32000.Idx) := by
    funext a
    apply Fin.ext
    match a with
    | ⟨0, _⟩ => show win1_3.index t (0 : Fin 2) * 2560 + 1 * r.val = r.val; omega
    | ⟨1, _⟩ => show win1_3.index t (1 : Fin 2) * 256 + 1 * j.val = 256 * t.val + j.val; omega
  have hw : ∀ k : Fin 1024, (iblk1 V c 1 t : Vec Ideal S1024x256 .f32) (ix2 k j)
      = w2A V c (ix2 k (⟨256 * t.val + j.val, hv⟩ : Fin 32000)) := fun k => w2Blk V c t _ _ rfl rfl
  have hb : (iblk1 V c 2 t : Vec Ideal S1x256 .f32) (ix2 0 j) = b2A V c (ix2 0 (⟨256 * t.val + j.val, hv⟩ : Fin 32000)) :=
    b2Blk V c t _ _ rfl rfl
  refine (out1_3_apply (iblk1 V c 0 t) (iblk1 V c 1 t) (iblk1 V c 2 t) r j).trans ?_
  rw [he]
  show _ = lrow V c r (⟨256 * t.val + j.val, hv⟩ : Fin 32000)
  unfold lrow Cert.Spec.logit
  simp only [hw, hb, hBlk]

/-- What point t writes back is block t of the one function O of the arrays the region finds. -/
theorem flushed_eq (c : Dev nD) (t : Fin cfg1.N) :
    (dat1 V c).flushed 3 t = ((cfg1.win 3).blk t).view.read (Elt Ideal) (O V c) := by
  show (cfg1.win 3).cut (grid1.coords t) ((dat1 V c).after 3 t) = _
  rw [after1_3]
  funext j
  exact out_at V c t j

/-- An index of the result array is in point t's block iff each coordinate is in the block's range on its axis. -/
theorem mem_blk (t : Fin cfg1.N) (i : S2560x32000.Idx) :
    i ∈ ((cfg1.win 3).blk t).view.set ↔ ∀ a : Fin 2, win1_3.index t a * S2560x256.size a ≤ (i a).val
      ∧ (i a).val < win1_3.index t a * S2560x256.size a + S2560x256.size a := by
  show i ∈ ((View.whole main_v9).slice (win1_3.rect t)).set ↔ _
  rw [View.set_slice_whole, Rect.mem_set_unit]
  exact Iff.rfl

/-- The 125 column blocks tile the result array: the index (r, v) lies in point v / 256's block. -/
theorem cover (i : S2560x32000.Idx) : ∃ t : Fin cfg1.N, (cfg1.win 3).flush t = true ∧ i ∈ ((cfg1.win 3).blk t).view.set := by
  have hN : cfg1.N = 125 := N_1
  have i0 : (i 0).val < 2560 := (i 0).isLt
  have i1 : (i 1).val < 32000 := (i 1).isLt
  obtain ⟨t, htv⟩ : ∃ t : Fin cfg1.N, t.val = (i 1).val / 256 := ⟨⟨(i 1).val / 256, by omega⟩, rfl⟩
  refine ⟨t, flush1_3 t, ?_⟩
  rw [mem_blk]
  obtain ⟨-, -, -, -, -, -, e0, e1⟩ := idx_facts t
  intro a
  match a with
  | ⟨0, _⟩ => show win1_3.index t (0 : Fin 2) * 2560 ≤ (i 0).val ∧ (i 0).val < win1_3.index t (0 : Fin 2) * 2560 + 2560; omega
  | ⟨1, _⟩ => show win1_3.index t (1 : Fin 2) * 256 ≤ (i 1).val ∧ (i 1).val < win1_3.index t (1 : Fin 2) * 256 + 256; omega

/-- The result array after the region: the logits, as one function of the arrays the region finds. -/
theorem final (c : Dev nD) : (dat1 V c).arrAt 3 cfg1.N = O V c :=
  (dat1 V c).arrAt_eq_of_cover 3 (O V c) (fun t _ => flushed_eq V c t) cover

end Cert.KernelIdeal.Stage2

end
-- ==== Proof.KernelValue.lean ====
/-
  The idealized kernel program's result as one function of its arguments. The program clamps the position words to
  0..2047 (the identity on words in range), reshapes, converts the hidden weights to a narrower format (the identity on
  the extended reals) and runs the first kernel: its result array holds the normalised hidden rows. That array,
  reshaped to 2560 rows, the projection weights and the bias row enter the second kernel, whose result array holds the
  logits; reshaped back to (8, 320, 32000) it is the program's result. Each host stretch is read operation by operation,
  each region's array by the tiling of its blocks.
-/
import proofs.«419608_j49538152792852_3_alg».proof.Proof.Gen.KernelIdeal.Frame
import proofs.«419608_j49538152792852_3_alg».proof.Proof.Spec
import proofs.«419608_j49538152792852_3_alg».proof.Proof.Stage1Array
import proofs.«419608_j49538152792852_3_alg».proof.Proof.Stage2Array
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.Value

open Cert.KernelIdeal Cert.KernelIdeal.Gen

variable (m : (ℓ : Loc nD τ sig) → Buf (Elt Ideal) ℓ) (ρ : Dev nD → PrngReg)

/-- The argument arrays, each at its literal type. -/
abbrev Xa (c : Dev nD) : S8x2048x1024.Idx → EReal := m ((c : Thread nD τ).loc main_arg0)
abbrev posa (c : Dev nD) : S8x320.Idx → BitVec 32 := m ((c : Thread nD τ).loc main_arg1)
abbrev W1a (c : Dev nD) : S1024x1024.Idx → EReal := m ((c : Thread nD τ).loc main_arg2)
abbrev b1a (c : Dev nD) : S1024.Idx → EReal := m ((c : Thread nD τ).loc main_arg3)
abbrev ga (c : Dev nD) : S1024.Idx → EReal := m ((c : Thread nD τ).loc main_arg4)
abbrev bea (c : Dev nD) : S1024.Idx → EReal := m ((c : Thread nD τ).loc main_arg5)
abbrev W2a (c : Dev nD) : S1024x32000.Idx → EReal := m ((c : Thread nD τ).loc main_arg6)
abbrev b2a (c : Dev nD) : S32000.Idx → EReal := m ((c : Thread nD τ).loc main_arg7)

/-- Clamping a word below 2048 to 0..2047, as signed words, leaves it. -/
theorem clamp_id (w : BitVec 32) (h : w.toNat < 2048) : IntOp.minsi 2047#32 (IntOp.maxsi 0#32 w) = w := by
  have c := BitVec.toInt_eq_toNat_cond w
  have hw : w.toInt = (w.toNat : Int) := by split at c <;> omega
  have z0 : (0#32 : BitVec 32).toInt = 0 := by decide
  have z1 : (2047#32 : BitVec 32).toInt = 2047 := by decide
  have h0 : w.slt 0#32 = false := by
    rw [BitVec.slt, decide_eq_false_iff_not]; omega
  have h1 : (2047#32 : BitVec 32).slt w = false := by
    rw [BitVec.slt, decide_eq_false_iff_not]; omega
  unfold IntOp.minsi IntOp.maxsi
  rw [h0]
  simp only [Bool.false_eq_true, if_false, h1]

/-! ## What the first region finds -/

theorem V3_seq (c : Dev nD) : Stage1.seqA (V3 m ρ) c = Xa m c := by
  show W3 m ρ c (Proc.devRef .tc main_arg0) = _
  after_results

theorem V3_pos (c : Dev nD) (b : Fin 8) (p : Fin 320) (hr : (posa m c (ix2 b p)).toNat < 2048) :
    Stage1.posA (V3 m ρ) c (ix3 b 0 p) = posa m c (ix2 b p) := by
  show W3 m ρ c (Proc.devRef .tc main_v1) (ix3 b 0 p) = _
  after_results
  show shapeCast S8x1x320 (minsi (broadcastInDim S8x320 ![] bcast_S_S8x320 (id (constantI S_ 32 2047#32)))
    (maxsi (broadcastInDim S8x320 ![] bcast_S_S8x320 (id (constantI S_ 32 0#32))) (posa m c))) shapeCasts_S8x320_S8x1x320 (ix3 b 0 p) = _
  rw [shapeCast_apply _ _ (ix3 b 0 p) (ix2 b p) (by
    rw [Shape.rowMajor_val_three, Shape.rowMajor_val_two]
    show b.val * 320 + p.val = (b.val * 1 + 0) * 320 + p.val
    omega)]
  exact clamp_id _ hr

theorem V3_w1 (c : Dev nD) (i : S1024x1024.Idx) : Stage1.w1A (V3 m ρ) c i = W1a m c i := by
  show W3 m ρ c (Proc.devRef .tc main_v2) i = _
  after_results
  rfl

theorem V3_b1 (c : Dev nD) (k : Fin 1024) : Stage1.b1A (V3 m ρ) c (ix2 0 k) = b1a m c (ix1 k) := by
  show W3 m ρ c (Proc.devRef .tc main_v3) (ix2 0 k) = _
  after_results
  exact shapeCast_a_1a_apply (b1a m c) shapeCasts_S1024_S1x1024 0 k
theorem V3_g (c : Dev nD) (k : Fin 1024) : Stage1.gA (V3 m ρ) c (ix2 0 k) = ga m c (ix1 k) := by
  show W3 m ρ c (Proc.devRef .tc main_v4) (ix2 0 k) = _
  after_results
  exact shapeCast_a_1a_apply (ga m c) shapeCasts_S1024_S1x1024 0 k
theorem V3_be (c : Dev nD) (k : Fin 1024) : Stage1.beA (V3 m ρ) c (ix2 0 k) = bea m c (ix1 k) := by
  show W3 m ρ c (Proc.devRef .tc main_v5) (ix2 0 k) = _
  after_results
  exact shapeCast_a_1a_apply (bea m c) shapeCasts_S1024_S1x1024 0 k

/-! ## The first region's result, and what the second region finds -/

/-- The arrays' coordinates as plain functions. -/
abbrev W1c (c : Dev nD) : Fin 1024 → Fin 1024 → EReal := fun h k => W1a m c (ix2 h k)
abbrev b1c (c : Dev nD) : Fin 1024 → EReal := fun k => b1a m c (ix1 k)
abbrev gc (c : Dev nD) : Fin 1024 → EReal := fun k => ga m c (ix1 k)
abbrev bec (c : Dev nD) : Fin 1024 → EReal := fun k => bea m c (ix1 k)
abbrev W2c (c : Dev nD) : Fin 1024 → Fin 32000 → EReal := fun k v => W2a m c (ix2 k v)
abbrev b2c (c : Dev nD) : Fin 32000 → EReal := fun v => b2a m c (ix1 v)
abbrev Xc (c : Dev nD) : Fin 8 → Fin 2048 → Fin 1024 → EReal := fun b s h => Xa m c (ix3 b s h)
abbrev posc (c : Dev nD) : Fin 8 → Fin 320 → BitVec 32 := fun b p => posa m c (ix2 b p)

/-- The normalised hidden row of batch entry b, slot p, of the ARGUMENTS. -/
def hnArg (c : Dev nD) (b : Fin 8) (p : Fin 320) (k : Fin 1024) : EReal :=
  Cert.Spec.hn (W1c m c) (b1c m c) (gc m c) (bec m c) (fun h => Xc m c b (Cert.Spec.row (posc m c b p)) h) k

variable (hr : ∀ (c : Dev nD) (b : Fin 8) (p : Fin 320), (posa m c (ix2 b p)).toNat < 2048)
include hr

/-- The first region's result array holds the normalised hidden rows of the arguments. -/
theorem hidden_arr (c : Dev nD) (b : Fin 8) (p : Fin 320) (k : Fin 1024) :
    (dat0 (V3 m ρ) c).arrAt 6 cfg0.N (ix3 b p k) = hnArg m c b p k := by
  have hr' : ∀ (b : Fin 8) (p : Fin 320), (Stage1.posA (V3 m ρ) c (ix3 b 0 p)).toNat < 2048 := fun b p => by
    rw [V3_pos m ρ c b p (hr c b p)]; exact hr c b p
  rw [Stage1.final (V3 m ρ) c hr']
  show Stage1.hrow (V3 m ρ) c b p k = _
  unfold Stage1.hrow hnArg
  have e1 : (fun h k => Stage1.w1A (V3 m ρ) c (ix2 h k)) = W1c m c := funext fun h => funext fun k => V3_w1 m ρ c _
  have e2 : (fun k => Stage1.b1A (V3 m ρ) c (ix2 0 k)) = b1c m c := funext fun k => V3_b1 m ρ c k
  have e3 : (fun k => Stage1.gA (V3 m ρ) c (ix2 0 k)) = gc m c := funext fun k => V3_g m ρ c k
  have e4 : (fun k => Stage1.beA (V3 m ρ) c (ix2 0 k)) = bec m c := funext fun k => V3_be m ρ c k
  rw [V3_pos m ρ c b p (hr c b p), V3_seq m ρ c, e1, e2, e3, e4]

/-- The second region finds the hidden rows reshaped to 2560 rows: row r is (batch entry r / 320, slot r % 320). -/
theorem V5_h (c : Dev nD) (b : Fin 8) (p : Fin 320) (k : Fin 1024) (r : Fin 2560) (hrow : r.val = b.val * 320 + p.val) :
    Stage2.hA (V5 m ρ) c (ix2 r k) = hnArg m c b p k := by
  show W5 m ρ c (Proc.devRef .tc main_v7) (ix2 r k) = _
  after_results
  show shapeCast S2560x1024 (W4 m ρ c (Proc.devRef .tc main_v6)) shapeCasts_S8x320x1024_S2560x1024 (ix2 r k) = _
  rw [shapeCast_apply _ _ (ix2 r k) (ix3 b p k) (by
    rw [Shape.rowMajor_val_three, Shape.rowMajor_val_two]
    show (b.val * 320 + p.val) * 1024 + k.val = r.val * 1024 + k.val
    rw [hrow])]
  rw [show W4 m ρ c (Proc.devRef .tc main_v6) = (dat0 (V3 m ρ) c).arrAt 6 cfg0.N from W4_arr m ρ c 6]
  exact hidden_arr m ρ hr c b p k

omit hr in
theorem V5_w2 (c : Dev nD) : Stage2.w2A (V5 m ρ) c = W2a m c := by
  show W5 m ρ c (Proc.devRef .tc main_arg6) = _
  after_results
  rw [W4_of_ne m ρ c main_arg6 (by decide)]
  after_results

omit hr in
theorem V5_b2 (c : Dev nD) (v : Fin 32000) : Stage2.b2A (V5 m ρ) c (ix2 0 v) = b2a m c (ix1 v) := by
  show W5 m ρ c (Proc.devRef .tc main_v8) (ix2 0 v) = _
  after_results
  rw [W4_of_ne m ρ c main_arg7 (by decide)]
  after_results
  exact shapeCast_a_1a_apply (b2a m c) shapeCasts_S32000_S1x32000 0 v

/-! ## The program's result -/

/-- The head of the arguments, as the program's result array. -/
def result (c : Dev nD) : Buf (Elt Ideal) ((c : Thread nD τ).loc main_v10) :=
  fun i => Cert.Spec.G (W1c m c) (b1c m c) (gc m c) (bec m c) (W2c m c) (b2c m c) (Xc m c) (posc m c) (i 0) (i 1) (i 2)

/-- The program's result array holds the head of its arguments. -/
theorem value (c : Dev nD) : W7 m ρ c (Proc.devRef .tc main_v10) = result m c := by
  funext i
  obtain ⟨b, p, v, rfl⟩ : ∃ (b : Fin 8) (p : Fin 320) (v : Fin 32000), i = ix3 b p v := ⟨i 0, i 1, i 2, eq_ix3 i⟩
  have hb : b.val * 320 + p.val < 2560 := by have := b.isLt; have := p.isLt; omega
  show W7 m ρ c (Proc.devRef .tc main_v10) (ix3 b p v)
    = Cert.Spec.G (W1c m c) (b1c m c) (gc m c) (bec m c) (W2c m c) (b2c m c) (Xc m c) (posc m c) b p v
  after_results
  show shapeCast S8x320x32000 (W6 m ρ c (Proc.devRef .tc main_v9)) shapeCasts_S2560x32000_S8x320x32000 (ix3 b p v) = _
  rw [shapeCast_apply _ _ (ix3 b p v) (ix2 (⟨b.val * 320 + p.val, hb⟩ : Fin 2560) v) (by
    rw [Shape.rowMajor_val_three, Shape.rowMajor_val_two]
    show (b.val * 320 + p.val) * 32000 + v.val = (b.val * 320 + p.val) * 32000 + v.val
    rfl)]
  rw [show W6 m ρ c (Proc.devRef .tc main_v9) = (dat1 (V5 m ρ) c).arrAt 3 cfg1.N from W6_arr m ρ c 3]
  rw [Stage2.final (V5 m ρ) c]
  show Stage2.lrow (V5 m ρ) c (⟨b.val * 320 + p.val, hb⟩ : Fin 2560) v = _
  unfold Stage2.lrow Cert.Spec.G
  have e : (fun k => Stage2.hA (V5 m ρ) c (ix2 (⟨b.val * 320 + p.val, hb⟩ : Fin 2560) k))
      = Cert.Spec.hn (W1c m c) (b1c m c) (gc m c) (bec m c) (fun h => Xc m c b (Cert.Spec.row (posc m c b p)) h) :=
    funext fun k => V5_h m ρ hr c b p k _ rfl
  have e5 : (fun v => Stage2.b2A (V5 m ρ) c (ix2 0 v)) = b2c m c := funext fun v => V5_b2 m ρ c v
  rw [e, V5_w2 m ρ c, e5]

end Cert.KernelIdeal.Value

end
-- ==== Proof.RefTerm.lean ====
/-
  What the reference computes, as one pure function of its eight arguments: the operations of its program in the
  order it applies them, cut into the stages of the computation —
    the gathered rows (take_along_axis: a negative position is wrapped by 2048, a position outside 0..2047 yields the
    fill value, otherwise the row at that position),
    the hidden linear map with its bias and the rectifier,
    the row mean and the row variance (the variance recomputes the mean, divides by 1024 − 0 and is guarded by
    1024 − 0 > 0), the normalisation with scale and shift,
    and the projection onto the vocabulary with its bias.
  The reference's run ends with its result at `refTerm` of the arguments; the value proof reads `refTerm` stage by stage.
-/
import proofs.«419608_j49538152792852_3_alg».proof.ReferenceIdeal

noncomputable section

namespace Cert.ReferenceIdeal.RefTerm

open Idealize.ShloMosaic Cert.ReferenceIdeal Cert.ReferenceIdeal.Facts₀ Cert.ReferenceIdeal.Facts

variable {F : FTy → Type} [FloatOps F] [Cert.ReferenceIdeal.Facts]

/-- The position words with a trailing unit axis (the index operand of the gather). -/
def posCol (pos : IVec S8x320 32) : IVec S8x320x1 32 :=
  broadcastInDim S8x320x1 ![0, 1] bcast_S8x320_S8x320x1_0_1 pos

/-- A negative position wrapped by the axis length 2048. -/
def wrapped (i : IVec S8x320x1 32) : IVec S8x320x1 32 :=
  select (cmpi .slt i (broadcastInDim S8x320x1 ![] bcast_S_S8x320x1 (constantI S_ 32 0#32)))
    (addi i (broadcastInDim S8x320x1 ![] bcast_S_S8x320x1 (constantI S_ 32 2048#32))) i

/-- Whether the wrapped position lies in 0..2047, per (batch entry, slot). -/
def inBounds (j : IVec S8x320x1 32) : IVec S8x320 1 :=
  (fun x v => Host.reduce IntOp.andi x v reducesTo_S8x320x1_S8x320_d2 h_S_)
    (andi (cmpi .sge j (broadcastInDim S8x320x1 ![] bcast_S_S8x320x1 (constantI S_ 32 0#32)))
      (cmpi .sle j (broadcastInDim S8x320x1 ![0, 1, 2] bcast_S1x1x1_S8x320x1_0_1_2
        (broadcastInDim S1x1x1 ![2] bcast_S1_S1x1x1_2 (constantI S1 32 2047#32)))))
    (constantI S_ 1 1#1)

/-- The gathered rows: where the position is in bounds the gathered row, elsewhere the fill value. -/
def taken (X : FVec F S8x2048x1024 .f32) (i : IVec S8x320x1 32) : FVec F S8x320x1024 .f32 :=
  select (broadcastInDim S8x320x1024 ![0, 1] bcast_S8x320_S8x320x1024_0_1 (inBounds (wrapped i)))
    ((fun x i => Host.gather gather_S8x2048x1024_S8x320x1_S8x320x1024_2_1_0_0_1_2_111024 x i) X (wrapped i))
    (broadcastInDim S8x320x1024 ![] bcast_S_S8x320x1024 (constant S_ .f32 0x7FC00000#32))

/-- The hidden linear map, its bias, the rectifier. -/
def hidden (x : FVec F S8x320x1024 .f32) (W1 : FVec F S1024x1024 .f32) (b1 : FVec F S1024 .f32) : FVec F S8x320x1024 .f32 :=
  maximumf
    (addf ((fun l r => Host.dotGeneral dot_S8x320x1024_S1024x1024_S8x320x1024_2_0_01_1_n_n none l r) x W1)
      (broadcastInDim S8x320x1024 ![0, 1, 2] bcast_S1x1x1024_S8x320x1024_0_1_2
        (broadcastInDim S1x1x1024 ![2] bcast_S1024_S1x1x1024_2 b1)))
    (broadcastInDim S8x320x1024 ![] bcast_S_S8x320x1024 (constant S_ .f32 0x00000000#32))

/-- The row mean, with a trailing unit axis. -/
def rowMean (h : FVec F S8x320x1024 .f32) : FVec F S8x320x1 .f32 :=
  Host.divf
    (broadcastInDim S8x320x1 ![0, 1] bcast_S8x320_S8x320x1_0_1
      ((fun x v => Host.reduceAdd x v reducesTo_S8x320x1024_S8x320_d2 h_S_) h (constant S_ .f32 0x00000000#32)))
    (broadcastInDim S8x320x1 ![] bcast_S_S8x320x1 (constant S_ .f32 0x44800000#32))

/-- The divisor of the variance: 1024 less the correction 0 converted to a float. -/
def varDen : FVec F S_ .f32 :=
  subf (constant S_ .f32 0x44800000#32) (sitofp .f32 (constantI S_ 32 0#32))

/-- The row variance as the reference's variance function computes it, with a trailing unit axis. -/
def rowVar (h : FVec F S8x320x1024 .f32) : FVec F S8x320x1 .f32 :=
  (fun p a b => select (broadcastInDim S8x320x1 ![] bcast_S_S8x320x1 p) a b)
    (cmpf .ogt (varDen (F := F)) (constant S_ .f32 0x00000000#32))
    (Host.divf
      (broadcastInDim S8x320x1 ![0, 1] bcast_S8x320_S8x320x1_0_1
        ((fun x v => Host.reduceAdd x v reducesTo_S8x320x1024_S8x320_d2 h_S_)
          (mulf (subf h (broadcastInDim S8x320x1024 ![0, 1, 2] bcast_S8x320x1_S8x320x1024_0_1_2 (rowMean h)))
            (subf h (broadcastInDim S8x320x1024 ![0, 1, 2] bcast_S8x320x1_S8x320x1024_0_1_2 (rowMean h))))
          (constant S_ .f32 0x00000000#32)))
      (broadcastInDim S8x320x1 ![] bcast_S_S8x320x1 (varDen (F := F))))
    (broadcastInDim S8x320x1 ![] bcast_S_S8x320x1 (id (constant S_ .f32 0x7FC00000#32)))

/-- The layer normalisation with scale and shift. -/
def normed (h : FVec F S8x320x1024 .f32) (g be : FVec F S1024 .f32) : FVec F S8x320x1024 .f32 :=
  addf
    (mulf
      (mulf (subf h (broadcastInDim S8x320x1024 ![0, 1, 2] bcast_S8x320x1_S8x320x1024_0_1_2 (rowMean h)))
        (broadcastInDim S8x320x1024 ![0, 1, 2] bcast_S8x320x1_S8x320x1024_0_1_2
          (Host.rsqrt (addf (rowVar h) (broadcastInDim S8x320x1 ![] bcast_S_S8x320x1 (constant S_ .f32 0x3727C5AC#32))))))
      (broadcastInDim S8x320x1024 ![0, 1, 2] bcast_S1x1x1024_S8x320x1024_0_1_2
        (broadcastInDim S1x1x1024 ![2] bcast_S1024_S1x1x1024_2 g)))
    (broadcastInDim S8x320x1024 ![0, 1, 2] bcast_S1x1x1024_S8x320x1024_0_1_2
      (broadcastInDim S1x1x1024 ![2] bcast_S1024_S1x1x1024_2 be))

/-- The projection onto the vocabulary with its bias. -/
def projected (h : FVec F S8x320x1024 .f32) (W2 : FVec F S1024x32000 .f32) (b2 : FVec F S32000 .f32) : FVec F S8x320x32000 .f32 :=
  addf ((fun l r => Host.dotGeneral dot_S8x320x1024_S1024x32000_S8x320x32000_2_0_01_1_n_n none l r) h W2)
    (broadcastInDim S8x320x32000 ![0, 1, 2] bcast_S1x1x32000_S8x320x32000_0_1_2
      (broadcastInDim S1x1x32000 ![2] bcast_S32000_S1x1x32000_2 b2))

/-- The reference's result as one function of its arguments. -/
def refTerm (X : FVec F S8x2048x1024 .f32) (pos : IVec S8x320 32) (W1 : FVec F S1024x1024 .f32) (b1 g be : FVec F S1024 .f32)
    (W2 : FVec F S1024x32000 .f32) (b2 : FVec F S32000 .f32) : FVec F S8x320x32000 .f32 :=
  projected (normed (hidden (taken X (posCol pos)) W1 b1) g be) W2 b2

end Cert.ReferenceIdeal.RefTerm

end
-- ==== Proof.RefRun.lean ====
/-
  The reference program's run. The reference has no kernel: its @main is a straight line of tensor operations,
  the functions it calls (the gather along the sequence axis, the rectifier, the row variance and the selection
  the variance ends in) standing at their call sites over the buffers of that call. Listed in program order the
  line is seventy-eight operations; each writes one buffer of its own and reads buffers written earlier or
  arguments. Hence every weakly fair execution terminates, the result buffer holds the composition of the
  operations in program order applied to the eight arguments — the function `refTerm` — and no argument buffer
  is written.
-/
import proofs.«419608_j49538152792852_3_alg».proof.ReferenceIdeal
import proofs.«419608_j49538152792852_3_alg».proof.Proof.Gen.ReferenceIdeal
import proofs.«419608_j49538152792852_3_alg».proof.Proof.RefTerm
import Idealize.ShloMosaic.Lib.StableHlo.Run

noncomputable section

namespace Cert.ReferenceIdeal.RefRun

open Cert.ReferenceIdeal Cert.ReferenceIdeal.Facts₀ Cert.ReferenceIdeal.Facts Idealize.ShloMosaic Idealize.ShloMosaic.TcCoe
  Idealize.SL.Sem Idealize.ShloMosaic.StableHlo

variable {F : FTy → Type} [FloatOps F] [Cert.ReferenceIdeal.Facts]

/-- @main's operations in program order, each called function's operations in the place of its call:
    the position words given a unit axis (1), the gather along the sequence axis (22: wrap a negative position
    by 2048, test 0 ≤ position ≤ 2047, gather the row, select the row or the fill value), the hidden linear map
    and its bias (4), the rectifier (3), the row mean (6) and the zero correction (1), the row variance (20) and
    the selection that guards its divisor (3), the normalisation with scale and shift (14), the projection onto
    the vocabulary and its bias (4). -/
abbrev ops : List (HloOp τ sig (Elt F)) :=
  [ -- the position words, with a trailing unit axis
    unary main_arg1 main_v0 (broadcastInDim S8x320x1 ![0, 1] bcast_S8x320_S8x320x1_0_1 : (⟨S8x320, .i32⟩ : BufTy).Contents (Elt F) → (⟨S8x320x1, .i32⟩ : BufTy).Contents (Elt F)),
    -- the gather along the sequence axis
    TRef.nullary main_call0.c (constantI S_ 32 0#32),
    TRef.unary main_call0.c main_call0.v0 (broadcastInDim S8x320x1 ![] bcast_S_S8x320x1),
    TRef.binary (.of main_v0 : TRef sig ⟨S8x320x1, .i32⟩) main_call0.v0 main_call0.v1 (cmpi .slt),
    TRef.nullary main_call0.c_0 (constantI S_ 32 2048#32),
    TRef.unary main_call0.c_0 main_call0.v2 (broadcastInDim S8x320x1 ![] bcast_S_S8x320x1),
    TRef.binary (.of main_v0 : TRef sig ⟨S8x320x1, .i32⟩) main_call0.v2 main_call0.v3 addi,
    TRef.ternary main_call0.v1 main_call0.v3 (.of main_v0 : TRef sig ⟨S8x320x1, .i32⟩) main_call0.v4 select,
    TRef.nullary main_call0.c_1 (constantI S1 32 2047#32),
    TRef.nullary main_call0.c_2 (constantI S_ 32 0#32),
    TRef.unary main_call0.c_2 main_call0.v5 (broadcastInDim S8x320x1 ![] bcast_S_S8x320x1),
    TRef.binary main_call0.v4 main_call0.v5 main_call0.v6 (cmpi .sge),
    TRef.unary main_call0.c_1 main_call0.v7 (broadcastInDim S1x1x1 ![2] bcast_S1_S1x1x1_2),
    TRef.unary main_call0.v7 main_call0.v8 (broadcastInDim S8x320x1 ![0, 1, 2] bcast_S1x1x1_S8x320x1_0_1_2),
    TRef.binary main_call0.v4 main_call0.v8 main_call0.v9 (cmpi .sle),
    TRef.binary main_call0.v6 main_call0.v9 main_call0.v10 andi,
    TRef.nullary main_call0.c_3 (constantI S_ 1 1#1),
    TRef.binary main_call0.v10 main_call0.c_3 main_call0.v11 (fun x v => Host.reduce IntOp.andi x v reducesTo_S8x320x1_S8x320_d2 h_S_),
    TRef.binary (.of main_arg0 : TRef sig ⟨S8x2048x1024, .f32⟩) main_call0.v4 main_call0.v12 (fun x i => Host.gather gather_S8x2048x1024_S8x320x1_S8x320x1024_2_1_0_0_1_2_111024 x i),
    TRef.unary main_call0.v11 main_call0.v13 (broadcastInDim S8x320x1024 ![0, 1] bcast_S8x320_S8x320x1024_0_1),
    TRef.nullary main_call0.cst (constant S_ .f32 0x7FC00000#32),
    TRef.unary main_call0.cst main_call0.v14 (broadcastInDim S8x320x1024 ![] bcast_S_S8x320x1024),
    TRef.ternary main_call0.v13 main_call0.v12 main_call0.v14 main_call0.v15 select,
    -- the hidden linear map and its bias
    binary main_v1 main_arg2 main_v2 ((fun l r => Host.dotGeneral dot_S8x320x1024_S1024x1024_S8x320x1024_2_0_01_1_n_n none l r) : (⟨S8x320x1024, .f32⟩ : BufTy).Contents (Elt F) → (⟨S1024x1024, .f32⟩ : BufTy).Contents (Elt F) → (⟨S8x320x1024, .f32⟩ : BufTy).Contents (Elt F)),
    unary main_arg3 main_v3 (broadcastInDim S1x1x1024 ![2] bcast_S1024_S1x1x1024_2 : (⟨S1024, .f32⟩ : BufTy).Contents (Elt F) → (⟨S1x1x1024, .f32⟩ : BufTy).Contents (Elt F)),
    unary main_v3 main_v4 (broadcastInDim S8x320x1024 ![0, 1, 2] bcast_S1x1x1024_S8x320x1024_0_1_2 : (⟨S1x1x1024, .f32⟩ : BufTy).Contents (Elt F) → (⟨S8x320x1024, .f32⟩ : BufTy).Contents (Elt F)),
    binary main_v2 main_v4 main_v5 (addf : (⟨S8x320x1024, .f32⟩ : BufTy).Contents (Elt F) → (⟨S8x320x1024, .f32⟩ : BufTy).Contents (Elt F) → (⟨S8x320x1024, .f32⟩ : BufTy).Contents (Elt F)),
    -- the rectifier
    TRef.nullary main_call1.cst (constant S_ .f32 0x00000000#32),
    TRef.unary main_call1.cst main_call1.v0 (broadcastInDim S8x320x1024 ![] bcast_S_S8x320x1024),
    TRef.binary (.of main_v5 : TRef sig ⟨S8x320x1024, .f32⟩) main_call1.v0 main_call1.v1 maximumf,
    -- the row mean
    nullary main_cst (constant S_ .f32 0x00000000#32),
    binary main_v6 main_cst main_v7 ((fun x v => Host.reduceAdd x v reducesTo_S8x320x1024_S8x320_d2 h_S_) : (⟨S8x320x1024, .f32⟩ : BufTy).Contents (Elt F) → (⟨S_, .f32⟩ : BufTy).Contents (Elt F) → (⟨S8x320, .f32⟩ : BufTy).Contents (Elt F)),
    unary main_v7 main_v8 (broadcastInDim S8x320x1 ![0, 1] bcast_S8x320_S8x320x1_0_1 : (⟨S8x320, .f32⟩ : BufTy).Contents (Elt F) → (⟨S8x320x1, .f32⟩ : BufTy).Contents (Elt F)),
    nullary main_cst_0 (constant S_ .f32 0x44800000#32),
    unary main_cst_0 main_v9 (broadcastInDim S8x320x1 ![] bcast_S_S8x320x1 : (⟨S_, .f32⟩ : BufTy).Contents (Elt F) → (⟨S8x320x1, .f32⟩ : BufTy).Contents (Elt F)),
    binary main_v8 main_v9 main_v10 (Host.divf : (⟨S8x320x1, .f32⟩ : BufTy).Contents (Elt F) → (⟨S8x320x1, .f32⟩ : BufTy).Contents (Elt F) → (⟨S8x320x1, .f32⟩ : BufTy).Contents (Elt F)),
    -- the correction of the variance's divisor: zero
    nullary main_c (constantI S_ 32 0#32),
    -- the row variance
    TRef.nullary main_call2.cst (constant S_ .f32 0x00000000#32),
    TRef.binary (.of main_v6 : TRef sig ⟨S8x320x1024, .f32⟩) main_call2.cst main_call2.v0 (fun x v => Host.reduceAdd x v reducesTo_S8x320x1024_S8x320_d2 h_S_),
    TRef.unary main_call2.v0 main_call2.v1 (broadcastInDim S8x320x1 ![0, 1] bcast_S8x320_S8x320x1_0_1),
    TRef.nullary main_call2.cst_0 (constant S_ .f32 0x44800000#32),
    TRef.unary main_call2.cst_0 main_call2.v2 (broadcastInDim S8x320x1 ![] bcast_S_S8x320x1),
    TRef.binary main_call2.v1 main_call2.v2 main_call2.v3 Host.divf,
    TRef.unary main_call2.v3 main_call2.v4 (broadcastInDim S8x320x1024 ![0, 1, 2] bcast_S8x320x1_S8x320x1024_0_1_2),
    TRef.binary (.of main_v6 : TRef sig ⟨S8x320x1024, .f32⟩) main_call2.v4 main_call2.v5 subf,
    TRef.binary main_call2.v5 main_call2.v5 main_call2.v6 mulf,
    TRef.unary (.of main_c : TRef sig ⟨S_, .i32⟩) main_call2.v7 (sitofp .f32),
    TRef.nullary main_call2.cst_1 (constant S_ .f32 0x44800000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S8x320x1024_S8x320_d2 h_S_),
    TRef.unary main_call2.v9 main_call2.v10 (broadcastInDim S8x320x1 ![0, 1] bcast_S8x320_S8x320x1_0_1),
    TRef.unary main_call2.v8 main_call2.v11 (broadcastInDim S8x320x1 ![] bcast_S_S8x320x1),
    TRef.binary main_call2.v10 main_call2.v11 main_call2.v12 Host.divf,
    TRef.nullary main_call2.cst_3 (constant S_ .f32 0x00000000#32),
    TRef.binary main_call2.v8 main_call2.cst_3 main_call2.v13 (cmpf .ogt),
    TRef.nullary main_call2.cst_4 (constant S_ .f32 0x7FC00000#32),
    -- the selection guarding the variance's divisor
    TRef.unary main_call2.cst_4 main_call2.call0.v0 id,
    TRef.unary main_call2.call0.v0 main_call2.call0.v1 (broadcastInDim S8x320x1 ![] bcast_S_S8x320x1),
    TRef.ternary main_call2.v13 main_call2.v12 main_call2.call0.v1 main_call2.call0.v2 (fun p a b => select (broadcastInDim S8x320x1 ![] bcast_S_S8x320x1 p) a b),
    -- the normalisation with scale and shift
    unary main_v10 main_v12 (broadcastInDim S8x320x1024 ![0, 1, 2] bcast_S8x320x1_S8x320x1024_0_1_2 : (⟨S8x320x1, .f32⟩ : BufTy).Contents (Elt F) → (⟨S8x320x1024, .f32⟩ : BufTy).Contents (Elt F)),
    binary main_v6 main_v12 main_v13 (subf : (⟨S8x320x1024, .f32⟩ : BufTy).Contents (Elt F) → (⟨S8x320x1024, .f32⟩ : BufTy).Contents (Elt F) → (⟨S8x320x1024, .f32⟩ : BufTy).Contents (Elt F)),
    nullary main_cst_1 (constant S_ .f32 0x3727C5AC#32),
    unary main_cst_1 main_v14 (broadcastInDim S8x320x1 ![] bcast_S_S8x320x1 : (⟨S_, .f32⟩ : BufTy).Contents (Elt F) → (⟨S8x320x1, .f32⟩ : BufTy).Contents (Elt F)),
    binary main_v11 main_v14 main_v15 (addf : (⟨S8x320x1, .f32⟩ : BufTy).Contents (Elt F) → (⟨S8x320x1, .f32⟩ : BufTy).Contents (Elt F) → (⟨S8x320x1, .f32⟩ : BufTy).Contents (Elt F)),
    unary main_v15 main_v16 (Host.rsqrt : (⟨S8x320x1, .f32⟩ : BufTy).Contents (Elt F) → (⟨S8x320x1, .f32⟩ : BufTy).Contents (Elt F)),
    unary main_v16 main_v17 (broadcastInDim S8x320x1024 ![0, 1, 2] bcast_S8x320x1_S8x320x1024_0_1_2 : (⟨S8x320x1, .f32⟩ : BufTy).Contents (Elt F) → (⟨S8x320x1024, .f32⟩ : BufTy).Contents (Elt F)),
    binary main_v13 main_v17 main_v18 (mulf : (⟨S8x320x1024, .f32⟩ : BufTy).Contents (Elt F) → (⟨S8x320x1024, .f32⟩ : BufTy).Contents (Elt F) → (⟨S8x320x1024, .f32⟩ : BufTy).Contents (Elt F)),
    unary main_arg4 main_v19 (broadcastInDim S1x1x1024 ![2] bcast_S1024_S1x1x1024_2 : (⟨S1024, .f32⟩ : BufTy).Contents (Elt F) → (⟨S1x1x1024, .f32⟩ : BufTy).Contents (Elt F)),
    unary main_v19 main_v20 (broadcastInDim S8x320x1024 ![0, 1, 2] bcast_S1x1x1024_S8x320x1024_0_1_2 : (⟨S1x1x1024, .f32⟩ : BufTy).Contents (Elt F) → (⟨S8x320x1024, .f32⟩ : BufTy).Contents (Elt F)),
    binary main_v18 main_v20 main_v21 (mulf : (⟨S8x320x1024, .f32⟩ : BufTy).Contents (Elt F) → (⟨S8x320x1024, .f32⟩ : BufTy).Contents (Elt F) → (⟨S8x320x1024, .f32⟩ : BufTy).Contents (Elt F)),
    unary main_arg5 main_v22 (broadcastInDim S1x1x1024 ![2] bcast_S1024_S1x1x1024_2 : (⟨S1024, .f32⟩ : BufTy).Contents (Elt F) → (⟨S1x1x1024, .f32⟩ : BufTy).Contents (Elt F)),
    unary main_v22 main_v23 (broadcastInDim S8x320x1024 ![0, 1, 2] bcast_S1x1x1024_S8x320x1024_0_1_2 : (⟨S1x1x1024, .f32⟩ : BufTy).Contents (Elt F) → (⟨S8x320x1024, .f32⟩ : BufTy).Contents (Elt F)),
    binary main_v21 main_v23 main_v24 (addf : (⟨S8x320x1024, .f32⟩ : BufTy).Contents (Elt F) → (⟨S8x320x1024, .f32⟩ : BufTy).Contents (Elt F) → (⟨S8x320x1024, .f32⟩ : BufTy).Contents (Elt F)),
    -- the projection onto the vocabulary and its bias
    binary main_v24 main_arg6 main_v25 ((fun l r => Host.dotGeneral dot_S8x320x1024_S1024x32000_S8x320x32000_2_0_01_1_n_n none l r) : (⟨S8x320x1024, .f32⟩ : BufTy).Contents (Elt F) → (⟨S1024x32000, .f32⟩ : BufTy).Contents (Elt F) → (⟨S8x320x32000, .f32⟩ : BufTy).Contents (Elt F)),
    unary main_arg7 main_v26 (broadcastInDim S1x1x32000 ![2] bcast_S32000_S1x1x32000_2 : (⟨S32000, .f32⟩ : BufTy).Contents (Elt F) → (⟨S1x1x32000, .f32⟩ : BufTy).Contents (Elt F)),
    unary main_v26 main_v27 (broadcastInDim S8x320x32000 ![0, 1, 2] bcast_S1x1x32000_S8x320x32000_0_1_2 : (⟨S1x1x32000, .f32⟩ : BufTy).Contents (Elt F) → (⟨S8x320x32000, .f32⟩ : BufTy).Contents (Elt F)),
    binary main_v25 main_v27 main_v28 (addf : (⟨S8x320x32000, .f32⟩ : BufTy).Contents (Elt F) → (⟨S8x320x32000, .f32⟩ : BufTy).Contents (Elt F) → (⟨S8x320x32000, .f32⟩ : BufTy).Contents (Elt F)) ]

set_option maxRecDepth 8192 in
set_option maxHeartbeats 4000000 in
/-- @main is that straight line: with the called functions' bodies put in the place of their calls and the
    sequencing re-associated, both sides are one chain of single operations ending in the return. -/
theorem main_eq (c : Dev nD) : main (F := F) c = seq ops := by
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation of the line touches buffers of the TensorCore only. -/
theorem ops_sub : (ops : List (HloOp τ sig (Elt F))).Forall fun op => op.bufs ⊆ tcRefs τ sig :=
  ⟨unary_bufs_sub .., nullary_bufs_sub .., unary_bufs_sub .., binary_bufs_sub .., nullary_bufs_sub .., unary_bufs_sub ..,
    binary_bufs_sub .., ternary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., binary_bufs_sub ..,
    unary_bufs_sub .., unary_bufs_sub .., binary_bufs_sub .., nullary_bufs_sub .., unary_bufs_sub .., binary_bufs_sub ..,
    nullary_bufs_sub .., binary_bufs_sub .., unary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., unary_bufs_sub .., binary_bufs_sub ..,
    nullary_bufs_sub .., binary_bufs_sub .., nullary_bufs_sub .., unary_bufs_sub .., unary_bufs_sub .., ternary_bufs_sub ..,
    unary_bufs_sub .., binary_bufs_sub .., nullary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., binary_bufs_sub .., binary_bufs_sub .., unary_bufs_sub .., unary_bufs_sub .., binary_bufs_sub ..⟩

set_option maxRecDepth 8192 in
set_option maxHeartbeats 4000000 in
/-- The result buffer after the line, from any contents: the operations' composition at the arguments. Each
    operation's result is read at its own buffer and every other buffer is read through it; what remains is the
    composition in program order, which is `refTerm` stage by stage. -/
theorem out_eq (V : Valuation τ sig (Elt F)) :
    after ops V (Proc.devRef .tc main_v28)
      = Cert.ReferenceIdeal.RefTerm.refTerm (F := F) (V (Proc.devRef .tc main_arg0)) (V (Proc.devRef .tc main_arg1))
          (V (Proc.devRef .tc main_arg2)) (V (Proc.devRef .tc main_arg3)) (V (Proc.devRef .tc main_arg4))
          (V (Proc.devRef .tc main_arg5)) (V (Proc.devRef .tc main_arg6)) (V (Proc.devRef .tc main_arg7)) := by
  after_results_simp
  rfl

set_option maxRecDepth 8192 in
set_option maxHeartbeats 1000000 in
/-- No operation of the line writes argument 0's buffer. -/
theorem arg0_eq (V : Valuation τ sig (Elt F)) :
    after ops V (Proc.devRef .tc main_arg0) = V (Proc.devRef .tc main_arg0) := by
  after_results_simp

set_option maxRecDepth 8192 in
set_option maxHeartbeats 1000000 in
/-- No operation of the line writes argument 1's buffer. -/
theorem arg1_eq (V : Valuation τ sig (Elt F)) :
    after ops V (Proc.devRef .tc main_arg1) = V (Proc.devRef .tc main_arg1) := by
  after_results_simp

set_option maxRecDepth 8192 in
set_option maxHeartbeats 1000000 in
/-- No operation of the line writes argument 2's buffer. -/
theorem arg2_eq (V : Valuation τ sig (Elt F)) :
    after ops V (Proc.devRef .tc main_arg2) = V (Proc.devRef .tc main_arg2) := by
  after_results_simp

set_option maxRecDepth 8192 in
set_option maxHeartbeats 1000000 in
/-- No operation of the line writes argument 3's buffer. -/
theorem arg3_eq (V : Valuation τ sig (Elt F)) :
    after ops V (Proc.devRef .tc main_arg3) = V (Proc.devRef .tc main_arg3) := by
  after_results_simp

set_option maxRecDepth 8192 in
set_option maxHeartbeats 1000000 in
/-- No operation of the line writes argument 4's buffer. -/
theorem arg4_eq (V : Valuation τ sig (Elt F)) :
    after ops V (Proc.devRef .tc main_arg4) = V (Proc.devRef .tc main_arg4) := by
  after_results_simp

set_option maxRecDepth 8192 in
set_option maxHeartbeats 1000000 in
/-- No operation of the line writes argument 5's buffer. -/
theorem arg5_eq (V : Valuation τ sig (Elt F)) :
    after ops V (Proc.devRef .tc main_arg5) = V (Proc.devRef .tc main_arg5) := by
  after_results_simp

set_option maxRecDepth 8192 in
set_option maxHeartbeats 1000000 in
/-- No operation of the line writes argument 6's buffer. -/
theorem arg6_eq (V : Valuation τ sig (Elt F)) :
    after ops V (Proc.devRef .tc main_arg6) = V (Proc.devRef .tc main_arg6) := by
  after_results_simp

set_option maxRecDepth 8192 in
set_option maxHeartbeats 1000000 in
/-- No operation of the line writes argument 7's buffer. -/
theorem arg7_eq (V : Valuation τ sig (Elt F)) :
    after ops V (Proc.devRef .tc main_arg7) = V (Proc.devRef .tc main_arg7) := by
  after_results_simp

/-- On every device, for any float values, from any memory with zero counters: every weakly fair execution of
    @main terminates, the result buffer ends at `refTerm` of the arguments' launch contents, and the eight
    argument buffers end as they were. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
        r.2.mem ((c.tc : Thread nD τ).loc main_v28)
            = Cert.ReferenceIdeal.RefTerm.refTerm (F := F) (m ((c.tc : Thread nD τ).loc main_arg0)) (m ((c.tc : Thread nD τ).loc main_arg1))
                (m ((c.tc : Thread nD τ).loc main_arg2)) (m ((c.tc : Thread nD τ).loc main_arg3)) (m ((c.tc : Thread nD τ).loc main_arg4))
                (m ((c.tc : Thread nD τ).loc main_arg5)) (m ((c.tc : Thread nD τ).loc main_arg6)) (m ((c.tc : Thread nD τ).loc main_arg7))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)) :=
  (θ_run defs _ _).mono (fun _ h c => ⟨(h c main_v28).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c)),
      (h c main_arg6).trans (arg6_eq (launchContents m c)),
      (h c main_arg7).trans (arg7_eq (launchContents m c))⟩)
    (run_seq scopedRefs_eq scopedSems_eq defs main (fun _ => ops) main_eq (fun _ => ops_sub) m ρ)

end Cert.ReferenceIdeal.RefRun

end
-- ==== Proof.LibBatchDot.lean ====
/-
  A matrix product with a leading pair of free axes, at the ideal values, read as a plain sum over its one contraction coordinate.

  The left operand has shape [B, P, K], the right operand [K, N], the result [B, P, N]; the dimension numbers contract the left
  operand's last axis with the right operand's first, keep the left operand's axes 0 and 1 and the right operand's axis 1, and
  have no batch axis. At the result index (b, p, n) the product is the sum over k : Fin K of lhs (b, p, k) · rhs (k, n).
  Stated at every B, P, K, N for the host's `dot_general`: a printed record with these six lists is `rowsDims B P K N wf` by `rfl`
  (the well-formedness field is a proposition).
-/
import Idealize.ShloMosaic.PureOps.Ideal.Laws
import Idealize.ShloMosaic.Lib.ValueIdx

noncomputable section

namespace Cert.Lib.BatchDot

open Idealize.ShloMosaic Idealize.ShloMosaic.ValueIdx

variable (B P K N : Nat)

/-- The dimension numbers of [B, P, K] times [K, N] into [B, P, N]: the left operand's last axis contracted with the right
    operand's first, no batch axis; their conditions `wf` are decided on a program's literal shapes. -/
abbrev rowsDims (wf : DotDims.WF ⟨3, ![B, P, K]⟩ ⟨2, ![K, N]⟩ ⟨3, ![B, P, N]⟩ [2] [0] [0, 1] [1] [] []) :
    DotDims ⟨3, ![B, P, K]⟩ ⟨2, ![K, N]⟩ ⟨3, ![B, P, N]⟩ where
  lhsContracting := [2]
  rhsContracting := [0]
  lhsNonContracting := [0, 1]
  rhsNonContracting := [1]
  lhsBatch := []
  rhsBatch := []
  wf := wf

variable (wf : DotDims.WF ⟨3, ![B, P, K]⟩ ⟨2, ![K, N]⟩ ⟨3, ![B, P, N]⟩ [2] [0] [0, 1] [1] [] [])

/-! ## The operand indices, axis by axis -/

theorem rows_lhs_0 (i : (⟨3, ![B, P, N]⟩ : Shape).Idx) (q : (rowsDims B P K N wf).contr.Idx) :
    ((rowsDims B P K N wf).lhsIdx i q 0).val = (i 0).val := by
  unfold DotDims.lhsIdx
  rw [dif_neg (show ¬(0 : Fin (⟨3, ![B, P, K]⟩ : Shape).rank) ∈ (rowsDims B P K N wf).lhsBatch from List.not_mem_nil),
    dif_pos (show (0 : Fin (⟨3, ![B, P, K]⟩ : Shape).rank) ∈ (rowsDims B P K N wf).lhsNonContracting from List.mem_cons.mpr (Or.inl rfl))]
  rfl
theorem rows_lhs_1 (i : (⟨3, ![B, P, N]⟩ : Shape).Idx) (q : (rowsDims B P K N wf).contr.Idx) :
    ((rowsDims B P K N wf).lhsIdx i q 1).val = (i 1).val := by
  unfold DotDims.lhsIdx
  rw [dif_neg (show ¬(1 : Fin (⟨3, ![B, P, K]⟩ : Shape).rank) ∈ (rowsDims B P K N wf).lhsBatch from List.not_mem_nil),
    dif_pos (show (1 : Fin (⟨3, ![B, P, K]⟩ : Shape).rank) ∈ (rowsDims B P K N wf).lhsNonContracting from List.mem_cons.mpr (Or.inr (List.mem_singleton.mpr rfl)))]
  rfl
theorem rows_lhs_2 (i : (⟨3, ![B, P, N]⟩ : Shape).Idx) (q : (rowsDims B P K N wf).contr.Idx) :
    ((rowsDims B P K N wf).lhsIdx i q 2).val = (q ⟨0, Nat.zero_lt_one⟩).val :=
  (rowsDims B P K N wf).lhsIdx_val_of_single rfl i q
theorem rows_rhs_0 (i : (⟨3, ![B, P, N]⟩ : Shape).Idx) (q : (rowsDims B P K N wf).contr.Idx) :
    ((rowsDims B P K N wf).rhsIdx i q 0).val = (q ⟨0, Nat.zero_lt_one⟩).val :=
  (rowsDims B P K N wf).rhsIdx_val_of_single rfl i q
theorem rows_rhs_1 (i : (⟨3, ![B, P, N]⟩ : Shape).Idx) (q : (rowsDims B P K N wf).contr.Idx) :
    ((rowsDims B P K N wf).rhsIdx i q 1).val = (i 2).val := by
  unfold DotDims.rhsIdx
  rw [dif_neg (show ¬(1 : Fin (⟨2, ![K, N]⟩ : Shape).rank) ∈ (rowsDims B P K N wf).rhsBatch from List.not_mem_nil),
    dif_pos (show (1 : Fin (⟨2, ![K, N]⟩ : Shape).rank) ∈ (rowsDims B P K N wf).rhsNonContracting from List.mem_singleton.mpr rfl)]
  rfl

/-- The sum over the contraction shape, re-indexed by the one contraction coordinate. -/
theorem rows_sum (lhs : (⟨3, ![B, P, K]⟩ : Shape).Idx → EReal) (rhs : (⟨2, ![K, N]⟩ : Shape).Idx → EReal)
    (i : (⟨3, ![B, P, N]⟩ : Shape).Idx) :
    (∑ q : (rowsDims B P K N wf).contr.Idx,
        lhs ((rowsDims B P K N wf).lhsIdx i q) * rhs ((rowsDims B P K N wf).rhsIdx i q))
      = ∑ k : Fin K, lhs (ix3 (i 0) (i 1) k) * rhs (ix2 k (i 2)) := by
  rw [← Equiv.sum_comp (contrEquiv1 (rowsDims B P K N wf) K rfl rfl).symm]
  refine Finset.sum_congr rfl fun k _ => ?_
  have hk := contrEquiv1_symm_val (rowsDims B P K N wf) K rfl rfl k
  have el : (rowsDims B P K N wf).lhsIdx i ((contrEquiv1 (rowsDims B P K N wf) K rfl rfl).symm k) = ix3 (i 0) (i 1) k :=
    funext fun a => Fin.ext (by
      match a with
      | ⟨0, _⟩ => exact rows_lhs_0 B P K N wf _ _
      | ⟨1, _⟩ => exact rows_lhs_1 B P K N wf _ _
      | ⟨2, _⟩ => exact (rows_lhs_2 B P K N wf _ _).trans hk)
  have er : (rowsDims B P K N wf).rhsIdx i ((contrEquiv1 (rowsDims B P K N wf) K rfl rfl).symm k) = ix2 k (i 2) :=
    funext fun a => Fin.ext (by
      match a with
      | ⟨0, _⟩ => exact (rows_rhs_0 B P K N wf _ _).trans hk
      | ⟨1, _⟩ => exact rows_rhs_1 B P K N wf _ _)
  exact congrArg₂ (fun a b : EReal => a * b) (congrArg lhs el) (congrArg rhs er)

/-- The host's `dot_general` with these dimension numbers, at an index. -/
theorem dotGeneral_rows_apply {φ₁ φ₂ : FTy} (prec : Option ContractPrecision) (sched : HostSchedule)
    (lhs : FVec Ideal ⟨3, ![B, P, K]⟩ φ₁) (rhs : FVec Ideal ⟨2, ![K, N]⟩ φ₂) (i : (⟨3, ![B, P, N]⟩ : Shape).Idx) :
    FloatOps.dotGeneral (rowsDims B P K N wf) prec sched lhs rhs i
      = ∑ k : Fin K, lhs (ix3 (i 0) (i 1) k) * rhs (ix2 k (i 2)) := by
  rw [Ideal.dotGeneral_apply]
  exact rows_sum B P K N wf lhs rhs i

/-- The same at explicit coordinates (b, p, n): the form a proof rewrites with, free of the index's dependent coordinate types. -/
theorem dotGeneral_rows_ix3 {φ₁ φ₂ : FTy} (prec : Option ContractPrecision) (sched : HostSchedule)
    (lhs : FVec Ideal ⟨3, ![B, P, K]⟩ φ₁) (rhs : FVec Ideal ⟨2, ![K, N]⟩ φ₂) (b : Fin B) (p : Fin P) (n : Fin N) :
    FloatOps.dotGeneral (rowsDims B P K N wf) prec sched lhs rhs (ix3 b p n)
      = ∑ k : Fin K, (lhs (ix3 b p k) : EReal) * (rhs (ix2 k n) : EReal) :=
  dotGeneral_rows_apply B P K N wf prec sched lhs rhs (ix3 b p n)

end Cert.Lib.BatchDot

end
-- ==== Proof.RefValueA.lean ====
/-
  Three stages of the reference's value, each read at one element, at the ideal values.

  The gathered rows. For a position word w below 2048 the signed comparison "w < 0" fails, so the wrap by 2048 keeps w; the
  comparisons "w ≥ 0" and "w ≤ 2047" both hold, so the in-bounds bit — their conjunction, reduced with "and" over a trailing
  axis of one element from the initial bit 1 — is 1 and the outer select takes the gathered row; and the gather reads the start
  index signed and clamps it into 0..2047, which leaves w. Hence element (b, p, h) of the gathered rows is X (b, w, h) with
  w the position word at (b, p).

  The hidden map. Element (b, p, k) is max (Σ_h x (b, p, h) · W1 (h, k) + b1 k) 0: the product is the sum over its one contraction
  coordinate, the bias is laid along the last axis, and the zero word is the extended real 0.

  The projection. Element (b, p, v) is Σ_k h (b, p, k) · W2 (k, v) + b2 v, in the same way.
-/
import proofs.«419608_j49538152792852_3_alg».proof.ReferenceIdeal
import proofs.«419608_j49538152792852_3_alg».proof.Proof.RefTerm
import proofs.«419608_j49538152792852_3_alg».proof.Proof.Spec
import proofs.«419608_j49538152792852_3_alg».proof.Proof.LibBatchDot
import Idealize.ShloMosaic.Lib.ValueIdx
import Idealize.ShloMosaic.Lib.Pipeline.Value
import Idealize.ShloMosaic.PureOps.Ideal.Laws
import Idealize.ShloMosaic.Lib.StableHlo.Predicate

noncomputable section

namespace Cert.ReferenceIdeal.RefValueA

open Cert.ReferenceIdeal Idealize.ShloMosaic Idealize.ShloMosaic.ValueIdx

variable [Cert.ReferenceIdeal.Facts]

/-! ## Broadcasts read at an element -/

/-- An array over the first two axes, laid along a third: element (a, b, c) is the array's (a, b). -/
private theorem bcast_pair_apply {α : Type} {n0 n1 n2 : Nat}
    (h : (⟨2, ![n0, n1]⟩ : Shape).BroadcastsInDim ⟨3, ![n0, n1, n2]⟩ ![0, 1])
    (x : (⟨2, ![n0, n1]⟩ : Shape).Idx → α) (a : Fin n0) (b : Fin n1) (c : Fin n2) :
    broadcastInDim ⟨3, ![n0, n1, n2]⟩ ![0, 1] h x (ix3 a b c) = x (ix2 a b) := by
  simp only [broadcastInDim]
  congr 1
  funext d
  match d with
  | ⟨0, _⟩ =>
    apply Fin.ext
    have ha := a.isLt
    split
    · next h1 => change n0 = 1 at h1; show (0 : Nat) = a.val; omega
    · rfl
  | ⟨1, _⟩ =>
    apply Fin.ext
    have hb := b.isLt
    split
    · next h1 => change n1 = 1 at h1; show (0 : Nat) = b.val; omega
    · rfl

/-- A vector laid along the last of three axes (through a shape with two leading unit axes): element (a, b, c) is the
    vector's c. -/
private theorem bcast_last_apply {α : Type} {n0 n1 n2 : Nat}
    (h₁ : (⟨1, ![n2]⟩ : Shape).BroadcastsInDim ⟨3, ![1, 1, n2]⟩ ![2])
    (h₂ : (⟨3, ![1, 1, n2]⟩ : Shape).BroadcastsInDim ⟨3, ![n0, n1, n2]⟩ ![0, 1, 2])
    (x : (⟨1, ![n2]⟩ : Shape).Idx → α) (a : Fin n0) (b : Fin n1) (c : Fin n2) :
    broadcastInDim ⟨3, ![n0, n1, n2]⟩ ![0, 1, 2] h₂ (broadcastInDim ⟨3, ![1, 1, n2]⟩ ![2] h₁ x) (ix3 a b c) = x (ix1 c) := by
  simp only [broadcastInDim]
  congr 1
  funext d
  match d with
  | ⟨0, _⟩ =>
    apply Fin.ext
    have hc := c.isLt
    split
    · next h1 => change n2 = 1 at h1; show (0 : Nat) = c.val; omega
    · split
      · next h2 => change n2 = 1 at h2; show (0 : Nat) = c.val; omega
      · rfl

/-! ## Words -/

/-- A word below 2048 is not negative as a signed word: the wrap's select keeps it. -/
private theorem wrap_word (w : BitVec 32) (hw : w.toNat < 2048) :
    Scalar.select (IntOp.cmpi .slt w 0#32) (IntOp.addi w 2048#32) w = w := by
  have h0 : ¬ IntOp.cmpi .slt w 0#32 = 1#1 := fun h =>
    absurd ((StableHlo.Predicate.slt_iff_toNat (a := w) (b := 0#32) (by omega) (by decide)).mp h) (by simp)
  rw [eq_zero_of_ne_one h0, select_zero]

/-- A word below 2048 is at least 0 and at most 2047 as a signed word: the in-bounds bit, and-ed with the initial 1, is 1. -/
private theorem inb_word (w : BitVec 32) (hw : w.toNat < 2048) :
    IntOp.andi (IntOp.andi (IntOp.cmpi .sge w 0#32) (IntOp.cmpi .sle w 2047#32)) 1#1 = 1#1 := by
  have h1 : IntOp.cmpi .sge w 0#32 = 1#1 :=
    (StableHlo.Predicate.sge_iff_toNat (a := w) (b := 0#32) (by omega) (by decide)).mpr (by simp)
  have h2 : IntOp.cmpi .sle w 2047#32 = 1#1 :=
    (StableHlo.Predicate.sle_iff_toNat (a := w) (b := 2047#32) (by omega) (by decide)).mpr (by
      show w.toNat ≤ 2047; omega)
  rw [h1, h2]; rfl

/-! ## The in-bounds bit: a reduction over the trailing unit axis -/

/-- Over a trailing axis of one element the only index above (b, p) is (b, p, 0). -/
private theorem lift_unit (b : Fin 8) (p : Fin 320) (hR : S8x320x1.Reduces [2] S8x320) (k : Fin (S8x320x1.size 2)) :
    hR.lift (ix2 b p) k = ix3 b p 0 := by
  funext c
  apply Fin.ext
  rw [hR.lift_val]
  unfold Shape.Reduces.liftVal
  match c with
  | ⟨0, _⟩ => rfl
  | ⟨1, _⟩ => rfl
  | ⟨2, _⟩ => show k.val = 0; have := k.isLt; change k.val < 1 at this; omega

/-- An "and" reduction over a trailing axis of one element, from the initial bit 1: the one element and-ed with 1. -/
private theorem reduce_and_unit (v : IVec S8x320x1 1) (b : Fin 8) (p : Fin 320) :
    Host.reduce IntOp.andi v (constantI S_ 1 1#1) Facts₀.reducesTo_S8x320x1_S8x320_d2 Facts₀.h_S_ (ix2 b p)
      = IntOp.andi (v (ix3 b p 0)) 1#1 := by
  have hR : S8x320x1.Reduces [2] S8x320 := by decide
  rw [Host.reduce_eq_fold_single IntOp.andi v _ _ hR]
  have hu : (Finset.univ : Finset (Fin (S8x320x1.size 2))) = {⟨0, Nat.one_pos⟩} := rfl
  rw [hu, Finset.fold_singleton]
  show IntOp.andi (v (hR.lift (ix2 b p) _)) 1#1 = _
  rw [lift_unit]

/-! ## The gather of whole rows, read at an element -/

local notation "GD" => gather_S8x2048x1024_S8x320x1_S8x320x1024_2_1_0_0_1_2_111024

/-- The gather of whole rows: element (b, p, h) is the operand at (b, s, h), s the start index at (b, p, 0) read signed and
    clamped into 0..2047. -/
private theorem gather_rows_apply {α : Type} (X : S8x2048x1024.Idx → α) (idx : IVec S8x320x1 32) (b : Fin 8) (p : Fin 320) (h : Fin 1024) :
    Host.gather GD X idx (ix3 b p h) = X (ix3 b ⟨min (idx (ix3 b p 0)).toInt.toNat 2047, by omega⟩ h) := by
  unfold Host.gather
  congr 1
  funext a
  refine Fin.ext ?_
  match a with
  | ⟨0, _⟩ =>
    show (GD).start (ix3 b p h) idx 0 + (GD).batchCoord (ix3 b p h) 0 + (GD).offCoord (ix3 b p h) 0 = b.val
    rw [GatherDims.start_batching _ _ _ _ (List.mem_singleton.mpr rfl),
      GatherDims.offCoord_eq_zero _ _ _ (fun hk => ((GatherDims.mem_sKept _ _).mp hk).2 (List.mem_singleton.mpr rfl))]
    simp only [Nat.add_zero, Nat.zero_add]
    unfold GatherDims.batchCoord
    rw [dif_pos (show (0 : Fin 3) ∈ (GD).operandBatchingDims from List.mem_singleton.mpr rfl)]
    rfl
  | ⟨1, _⟩ =>
    show (GD).start (ix3 b p h) idx 1 + (GD).batchCoord (ix3 b p h) 1 + (GD).offCoord (ix3 b p h) 1
      = min (idx (ix3 b p 0)).toInt.toNat 2047
    rw [GatherDims.batchCoord_eq_zero _ _ _ (fun hm => absurd (List.mem_singleton.mp hm) (by decide)),
      GatherDims.offCoord_eq_zero _ _ _ (fun hk => ((GatherDims.mem_sKept _ _).mp hk).1 (List.mem_singleton.mpr rfl))]
    simp only [Nat.add_zero]
    unfold GatherDims.start
    rw [dif_pos (show (1 : Fin 3) ∈ (GD).startIndexMap from List.mem_singleton.mpr rfl)]
    have hsi : (GD).siIdx (ix3 b p h) ⟨List.idxOf (1 : Fin 3) (GD).startIndexMap,
        List.idxOf_lt_length_iff.2 (List.mem_singleton.mpr rfl)⟩ = ix3 b p 0 := by
      funext c; refine Fin.ext ?_
      match c with
      | ⟨0, _⟩ => rfl
      | ⟨1, _⟩ => rfl
      | ⟨2, _⟩ => rfl
    rw [hsi]
    rfl
  | ⟨2, _⟩ =>
    show (GD).start (ix3 b p h) idx 2 + (GD).batchCoord (ix3 b p h) 2 + (GD).offCoord (ix3 b p h) 2 = h.val
    rw [GatherDims.batchCoord_eq_zero _ _ _ (fun hm => absurd (List.mem_singleton.mp hm) (by decide))]
    unfold GatherDims.start
    rw [dif_neg (show ¬ (2 : Fin 3) ∈ (GD).startIndexMap from fun hm => absurd (List.mem_singleton.mp hm) (by decide))]
    simp only [Nat.add_zero, Nat.zero_add]
    unfold GatherDims.offCoord
    rw [dif_pos ((GatherDims.mem_sKept _ _).mpr ⟨fun hm => absurd (List.mem_singleton.mp hm) (by decide),
      fun hm => absurd (List.mem_singleton.mp hm) (by decide)⟩)]
    rfl

/-! ## The gathered rows -/

private theorem posCol_apply (pos : IVec S8x320 32) (b : Fin 8) (p : Fin 320) :
    RefTerm.posCol pos (ix3 b p 0) = pos (ix2 b p) :=
  bcast_pair_apply _ pos b p 0

private theorem wrapped_apply (i : IVec S8x320x1 32) (b : Fin 8) (p : Fin 320) (hw : (i (ix3 b p 0)).toNat < 2048) :
    RefTerm.wrapped i (ix3 b p 0) = i (ix3 b p 0) := by
  show Scalar.select (IntOp.cmpi .slt (i (ix3 b p 0)) 0#32) (IntOp.addi (i (ix3 b p 0)) 2048#32) (i (ix3 b p 0)) = _
  exact wrap_word _ hw

private theorem inBounds_apply (j : IVec S8x320x1 32) (b : Fin 8) (p : Fin 320) (hw : (j (ix3 b p 0)).toNat < 2048) :
    RefTerm.inBounds j (ix2 b p) = 1#1 := by
  unfold RefTerm.inBounds
  refine (reduce_and_unit _ b p).trans ?_
  show IntOp.andi (IntOp.andi (IntOp.cmpi .sge (j (ix3 b p 0)) 0#32) (IntOp.cmpi .sle (j (ix3 b p 0)) 2047#32)) 1#1 = 1#1
  exact inb_word _ hw

theorem taken_apply (X : FVec Ideal S8x2048x1024 .f32) (pos : IVec S8x320 32)
    (hr : ∀ (b : Fin 8) (p : Fin 320), (pos (ix2 b p)).toNat < 2048) (b : Fin 8) (p : Fin 320) (h : Fin 1024) :
    RefTerm.taken (F := Ideal) X (RefTerm.posCol pos) (ix3 b p h) = X (ix3 b (Cert.Spec.row (pos (ix2 b p))) h) := by
  have hlt := hr b p
  have hp : RefTerm.posCol pos (ix3 b p 0) = pos (ix2 b p) := posCol_apply pos b p
  have hwr : RefTerm.wrapped (RefTerm.posCol pos) (ix3 b p 0) = pos (ix2 b p) :=
    (wrapped_apply _ b p (by rw [hp]; exact hlt)).trans hp
  have hib : RefTerm.inBounds (RefTerm.wrapped (RefTerm.posCol pos)) (ix2 b p) = 1#1 :=
    inBounds_apply _ b p (by rw [hwr]; exact hlt)
  show Scalar.select (broadcastInDim S8x320x1024 ![0, 1] _ (RefTerm.inBounds (RefTerm.wrapped (RefTerm.posCol pos))) (ix3 b p h))
      (Host.gather GD X (RefTerm.wrapped (RefTerm.posCol pos)) (ix3 b p h)) _ = _
  rw [bcast_pair_apply, hib, select_one, gather_rows_apply]
  have hti : (pos (ix2 b p)).toInt = (pos (ix2 b p)).toNat := StableHlo.Predicate.toInt_eq_toNat_of_lt (by omega)
  refine congrArg X (congrArg (fun r : Fin 2048 => ix3 b r h) (Fin.ext ?_))
  show min (RefTerm.wrapped (RefTerm.posCol pos) (ix3 b p 0)).toInt.toNat 2047 = (pos (ix2 b p)).toNat % 2048
  rw [hwr, hti, Int.toNat_natCast, Nat.mod_eq_of_lt hlt]
  omega

/-! ## The hidden map and the projection -/

theorem hidden_apply (x : FVec Ideal S8x320x1024 .f32) (W1 : FVec Ideal S1024x1024 .f32) (b1 : FVec Ideal S1024 .f32)
    (b : Fin 8) (p : Fin 320) (k : Fin 1024) :
    RefTerm.hidden (F := Ideal) x W1 b1 (ix3 b p k)
      = Cert.Spec.act (fun h k => W1 (ix2 h k)) (fun k => b1 (ix1 k)) (fun h => x (ix3 b p h)) k := by
  unfold RefTerm.hidden
  beta_reduce
  rw [maximumf_apply, addf_apply, bcast_last_apply]
  have hd : Host.dotGeneral dot_S8x320x1024_S1024x1024_S8x320x1024_2_0_01_1_n_n none x W1 (ix3 b p k)
      = ∑ h : Fin 1024, x (ix3 b p h) * W1 (ix2 h k) :=
    Cert.Lib.BatchDot.dotGeneral_rows_ix3 8 320 1024 1024 _ none .single x W1 b p k
  have hz : broadcastInDim S8x320x1024 ![] Facts₀.bcast_S_S8x320x1024 (constant (F := Ideal) S_ .f32 0x00000000#32) (ix3 b p k)
      = (0 : EReal) := Ideal.ofBits_zero_f32
  rw [hd, hz]
  rfl

theorem projected_apply (h : FVec Ideal S8x320x1024 .f32) (W2 : FVec Ideal S1024x32000 .f32) (b2 : FVec Ideal S32000 .f32)
    (b : Fin 8) (p : Fin 320) (v : Fin 32000) :
    RefTerm.projected (F := Ideal) h W2 b2 (ix3 b p v)
      = Cert.Spec.logit (fun k v => W2 (ix2 k v)) (fun v => b2 (ix1 v)) (fun k => h (ix3 b p k)) v := by
  unfold RefTerm.projected
  beta_reduce
  rw [addf_apply, bcast_last_apply]
  have hd : Host.dotGeneral dot_S8x320x1024_S1024x32000_S8x320x32000_2_0_01_1_n_n none h W2 (ix3 b p v)
      = ∑ k : Fin 1024, h (ix3 b p k) * W2 (ix2 k v) :=
    Cert.Lib.BatchDot.dotGeneral_rows_ix3 8 320 1024 32000 _ none .single h W2 b p v
  rw [hd]
  rfl

end Cert.ReferenceIdeal.RefValueA

end
-- ==== Proof.RefValueB.lean ====
/-
  The reference's layer normalisation read at one element, on the extended reals.

  For a batch entry b and a slot p write a k = h(b, p, k) for the row of 1024 activations. The reference computes
    the row mean     (0 + Σ_k a k) / 1024, the sum taken over the last axis from the zero word, kept with a trailing
                     unit axis and divided by the word of 1024;
    the row variance (0 + Σ_k (a k − mean) · (a k − mean)) / (1024 − 0), selected against a fill word by the scalar
                     bit 1024 − 0 > 0; the correction 0 is the integer zero converted to a float, so the divisor is
                     the word of 1024 itself and the bit is set: the quotient is what is selected;
    the result       (a k − mean) · rsqrt (variance + ε) · γ k + β k, the mean and the scale broadcast back along
                     the last axis, γ and β broadcast along the first two.
  Each broadcast read at explicit coordinates is the operand at the coordinates it keeps (zero on a unit axis), and
  the sum over the last axis read at (b, p) is the sum over k of the operand at (b, p, k). With these the three
  stages are the specification's mean, var and ln of the row a, term for term. The word of 1024 is evaluated in one
  place (`c1024_eq`), for the divisor's subtraction and the guard's comparison only; ε is never evaluated.
-/
import proofs.«419608_j49538152792852_3_alg».proof.ReferenceIdeal
import proofs.«419608_j49538152792852_3_alg».proof.Proof.RefTerm
import proofs.«419608_j49538152792852_3_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StableHlo.Predicate
import Idealize.ShloMosaic.Lib.IdealHost

noncomputable section

namespace Cert.ReferenceIdeal.RefValueB

open Cert.ReferenceIdeal Idealize.ShloMosaic Idealize.ShloMosaic.ValueIdx

variable [Cert.ReferenceIdeal.Facts]

/-- The f32 word 0x44800000 is the real 1024. -/
theorem c1024_eq : Cert.Spec.c1024 = ((1024 : ℝ) : EReal) := by
  show Ideal.ofBits .f32 0x44800000#32 = _
  simp [Ideal.ofBits, Ideal.ieee, -EReal.coe_mul]; norm_num

/-- The variance's divisor 1024 − 0, the 0 being the integer zero read as a float, is the word of 1024. -/
theorem varDen_apply (i : S_.Idx) : RefTerm.varDen (F := Ideal) i = Cert.Spec.c1024 := by
  unfold RefTerm.varDen
  rw [subf_apply, constant_apply, sitofp_apply]
  show Cert.Spec.c1024 - (((0#32 : BitVec 32).toInt : ℝ) : EReal) = _
  simp

/-- The guard bit 1024 − 0 > 0 is set. -/
theorem guard_apply (i : S_.Idx) :
    cmpf .ogt (RefTerm.varDen (F := Ideal)) (constant S_ .f32 0x00000000#32) i = 1#1 := by
  rw [cmpf_apply, varDen_apply, constant_apply, Ideal.cmpf_def, Ideal.ofBits_zero_f32, c1024_eq]
  unfold Ideal.cmp
  simp

section Bcast
variable {α : Type}

/-- A (batch entry, slot) array given a trailing unit axis, read at (b, p, z), is the array at (b, p). -/
theorem bcast_row (x : S8x320.Idx → α) (b : Fin 8) (p : Fin 320) (z : Fin 1) :
    broadcastInDim S8x320x1 ![0, 1] Facts₀.bcast_S8x320_S8x320x1_0_1 x (ix3 b p z) = x (ix2 b p) := by
  refine broadcastInDim_apply _ _ x _ _ (fun a => ?_)
  fin_cases a <;> rfl

/-- An array with a trailing unit axis broadcast along the last axis, read at (b, p, k), is the array at (b, p, 0). -/
theorem bcast_col (x : S8x320x1.Idx → α) (b : Fin 8) (p : Fin 320) (k : Fin 1024) :
    broadcastInDim S8x320x1024 ![0, 1, 2] Facts₀.bcast_S8x320x1_S8x320x1024_0_1_2 x (ix3 b p k) = x (ix3 b p 0) := by
  refine broadcastInDim_apply _ _ x _ _ (fun a => ?_)
  fin_cases a <;> rfl

/-- A vector of 1024 entries broadcast along the first two axes, read at (b, p, k), is its entry k. -/
theorem bcast_vec (x : S1024.Idx → α) (b : Fin 8) (p : Fin 320) (k : Fin 1024) :
    broadcastInDim S8x320x1024 ![0, 1, 2] Facts₀.bcast_S1x1x1024_S8x320x1024_0_1_2
      (broadcastInDim S1x1x1024 ![2] Facts₀.bcast_S1024_S1x1x1024_2 x) (ix3 b p k) = x (ix1 k) := by
  refine (broadcastInDim_apply _ _ _ _ (ix3 0 0 k) (fun a => ?_)).trans ?_
  · fin_cases a <;> rfl
  · refine broadcastInDim_apply _ _ x _ _ (fun a => ?_)
    fin_cases a; rfl

end Bcast

/-- The reference's sum over the last axis from the zero word, at a (batch entry, slot): the sum of the row. -/
theorem rowSum_apply (x : FVec Ideal S8x320x1024 .f32) (b : Fin 8) (p : Fin 320) :
    Host.reduceAdd x (constant (F := Ideal) S_ .f32 0x00000000#32) Facts₀.reducesTo_S8x320x1024_S8x320_d2 Facts₀.h_S_ (ix2 b p)
      = ∑ k : Fin 1024, x (ix3 b p k) := by
  rw [hostReduceAdd_apply, constant_apply, Ideal.ofBits_zero_f32,
    Ideal.hostReduceAdd_single _ (by decide : S8x320x1024.Reduces [2] S8x320), zero_add]
  refine Finset.sum_congr rfl (fun k _ => congrArg x (funext fun a => ?_))
  fin_cases a <;> rfl

/-- The host's reciprocal square root at an index. -/
theorem hostRsqrt_apply {s : Shape} {φ : FTy} (x : FVec Ideal s φ) (i : s.Idx) : Host.rsqrt x i = Ideal.rsqrt (x i) := rfl

/-- The reference's row mean is the specification's mean of the row. -/
theorem rowMean_apply (h : FVec Ideal S8x320x1024 .f32) (b : Fin 8) (p : Fin 320) :
    RefTerm.rowMean (F := Ideal) h (ix3 b p 0) = Cert.Spec.mean (fun k => h (ix3 b p k)) := by
  unfold RefTerm.rowMean Cert.Spec.mean
  rw [hostDivf_apply, bcast_row, broadcastInDim_scalar_apply, constant_apply]
  exact congrArg (fun s => Ideal.div s Cert.Spec.c1024) (rowSum_apply h b p)

/-- The reference's row variance is the specification's variance of the row: its divisor 1024 − 0 is 1024, its guard
    1024 − 0 > 0 holds, so the quotient is selected. -/
theorem rowVar_apply (h : FVec Ideal S8x320x1024 .f32) (b : Fin 8) (p : Fin 320) :
    RefTerm.rowVar (F := Ideal) h (ix3 b p 0) = Cert.Spec.var (fun k => h (ix3 b p k)) := by
  unfold RefTerm.rowVar Cert.Spec.var
  beta_reduce
  rw [select_apply, broadcastInDim_scalar_apply, guard_apply, select_one, hostDivf_apply, bcast_row,
    broadcastInDim_scalar_apply, varDen_apply]
  refine congrArg (fun s => Ideal.div s Cert.Spec.c1024) ?_
  refine (rowSum_apply _ b p).trans (Finset.sum_congr rfl fun k _ => ?_)
  rw [mulf_apply, subf_apply, bcast_col, rowMean_apply]
  rfl

/-- The reference's layer normalisation at one element is the specification's. -/
theorem normed_apply (h : FVec Ideal S8x320x1024 .f32) (g be : FVec Ideal S1024 .f32) (b : Fin 8) (p : Fin 320) (k : Fin 1024) :
    RefTerm.normed (F := Ideal) h g be (ix3 b p k)
      = Cert.Spec.ln (fun k => g (ix1 k)) (fun k => be (ix1 k)) (fun k => h (ix3 b p k)) k := by
  unfold RefTerm.normed Cert.Spec.ln Cert.Spec.dev Cert.Spec.scale
  rw [addf_apply, mulf_apply, mulf_apply, subf_apply, bcast_col, bcast_col, bcast_vec, bcast_vec, rowMean_apply,
    hostRsqrt_apply, addf_apply, rowVar_apply, broadcastInDim_scalar_apply, constant_apply]

end Cert.ReferenceIdeal.RefValueB

end
-- ==== Proof.RefValue.lean ====
/-
  The reference's result at one element is the head of its arguments. The reference's term is its stages composed:
  the gathered rows, the hidden activations, the layer normalisation, the projection. Read at (b, p, v), the
  projection is the sum over the hidden coordinate of the normalised row of (b, p) against the weights' column v, plus
  the bias; the normalised row is the layer normalisation of the activation row of (b, p); the activation row is the
  rectified, biased linear image of the gathered row; and the gathered row, for a position word in range, is the
  sequence row that word names.
-/
import proofs.«419608_j49538152792852_3_alg».proof.Proof.RefValueA
import proofs.«419608_j49538152792852_3_alg».proof.Proof.RefValueB

noncomputable section

namespace Cert.ReferenceIdeal.RefValue

open Cert.ReferenceIdeal Idealize.ShloMosaic Idealize.ShloMosaic.ValueIdx

variable [Cert.ReferenceIdeal.Facts]

theorem refTerm_apply (X : FVec Ideal S8x2048x1024 .f32) (pos : IVec S8x320 32) (W1 : FVec Ideal S1024x1024 .f32)
    (b1 g be : FVec Ideal S1024 .f32) (W2 : FVec Ideal S1024x32000 .f32) (b2 : FVec Ideal S32000 .f32)
    (hr : ∀ (b : Fin 8) (p : Fin 320), (pos (ix2 b p)).toNat < 2048) (b : Fin 8) (p : Fin 320) (v : Fin 32000) :
    RefTerm.refTerm (F := Ideal) X pos W1 b1 g be W2 b2 (ix3 b p v)
      = Cert.Spec.G (fun h k => W1 (ix2 h k)) (fun k => b1 (ix1 k)) (fun k => g (ix1 k)) (fun k => be (ix1 k))
          (fun k v => W2 (ix2 k v)) (fun v => b2 (ix1 v)) (fun b s h => X (ix3 b s h)) (fun b p => pos (ix2 b p)) b p v := by
  have e1 : (fun h => RefTerm.taken (F := Ideal) X (RefTerm.posCol pos) (ix3 b p h))
      = fun h => X (ix3 b (Cert.Spec.row (pos (ix2 b p))) h) :=
    funext fun h => RefValueA.taken_apply X pos hr b p h
  have e2 : (fun k => RefTerm.hidden (F := Ideal) (RefTerm.taken X (RefTerm.posCol pos)) W1 b1 (ix3 b p k))
      = Cert.Spec.act (fun h k => W1 (ix2 h k)) (fun k => b1 (ix1 k)) (fun h => X (ix3 b (Cert.Spec.row (pos (ix2 b p))) h)) :=
    funext fun k => (RefValueA.hidden_apply _ W1 b1 b p k).trans (by rw [e1])
  have e3 : (fun k => RefTerm.normed (F := Ideal) (RefTerm.hidden (RefTerm.taken X (RefTerm.posCol pos)) W1 b1) g be (ix3 b p k))
      = Cert.Spec.hn (fun h k => W1 (ix2 h k)) (fun k => b1 (ix1 k)) (fun k => g (ix1 k)) (fun k => be (ix1 k))
          (fun h => X (ix3 b (Cert.Spec.row (pos (ix2 b p))) h)) :=
    funext fun k => (RefValueB.normed_apply _ g be b p k).trans (by unfold Cert.Spec.hn; rw [e2])
  unfold RefTerm.refTerm
  rw [RefValueA.projected_apply, e3]
  rfl

end Cert.ReferenceIdeal.RefValue

end
-- ==== Proof.lean ====
/-
  The certificate of the masked-language-model head: a two-kernel program (gather by a one-hot product, hidden linear
  map, rectifier and layer normalisation in the first kernel; the projection onto the vocabulary in the second) against
  the plain reference (take_along_axis, two contractions, the layer normalisation), over the extended reals, for
  position words in 0..2047.

  On the extended reals both programs compute, at batch entry b, slot p and vocabulary entry v,
      Σ_h hn(b, p, h) · W2(h, v) + b2(v),
  where hn(b, p, ·) is the layer normalisation (mean and variance over the 1024 hidden coordinates, the reciprocal root
  of the variance plus ε, scale γ and shift β) of the rectified, biased linear image Σ_h x(h) · W1(h, ·) + b1 of the
  sequence row x = X(b, pos(b, p), ·). The kernel gathers that row as the product of a one-hot matrix with the
  sequence block — one term of the sum survives, and 0 · y = 0, 1 · y = y hold for every extended real —, the reference
  by an indexed read; the kernel clamps the position to 0..2047 and the reference wraps a negative one and fills an
  out-of-range one, all three the identity on a word in range. Sums, products, the divisions by the word of 1024, the
  word of ε and the reciprocal root are the same operations on both sides in the same order, and the format changes of
  the kernel are the identity; no algebraic law beyond these readings is needed, and finiteness of the inputs is not used.

  The frames of the two kernel programs are the generated ones; the reference's frame is its run with the result
  dropped; the idealization rewrote nothing, so `preserves` is trivial.
-/
import proofs.«419608_j49538152792852_3_alg».proof.Defs
import proofs.«419608_j49538152792852_3_alg».proof.Proof.Gen.Kernel
import proofs.«419608_j49538152792852_3_alg».proof.Proof.Gen.Kernel.Frame
import proofs.«419608_j49538152792852_3_alg».proof.Proof.Gen.KernelIdeal
import proofs.«419608_j49538152792852_3_alg».proof.Proof.Gen.KernelIdeal.Frame
import proofs.«419608_j49538152792852_3_alg».proof.Proof.Gen.ReferenceIdeal
import proofs.«419608_j49538152792852_3_alg».proof.Proof.Gen.Pre_finite_inputs
import proofs.«419608_j49538152792852_3_alg».proof.Proof.PreRange
import proofs.«419608_j49538152792852_3_alg».proof.Proof.KernelRun
import proofs.«419608_j49538152792852_3_alg».proof.Proof.KernelValue
import proofs.«419608_j49538152792852_3_alg».proof.Proof.RefRun
import proofs.«419608_j49538152792852_3_alg».proof.Proof.RefValue
import Idealize.ShloMosaic.Adequacy
import Idealize.ShloMosaic.Init

noncomputable section

namespace Cert.Proof

open Idealize.ShloMosaic Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result's conjunct dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The ideal pass rewrote no operation. -/
theorem preserves : Cert.preserves_Kernel_KernelIdeal := trivial

/-- Both idealized programs end with the head of their (agreeing) arguments in their result arrays. -/
theorem algebraic : Cert.algebraic_KernelIdeal_ReferenceIdeal := by
  intro m ρ m' ρ' hpre hagree
  have hr : ∀ (c : Dev Cert.KernelIdeal.nD) (b : Fin 8) (p : Fin 320),
      (Cert.KernelIdeal.Value.posa m c (ix2 b p)).toNat < 2048 :=
    fun c b p => Cert.PreRange.pos_lt_of_pre _ _ _ _ _ _ _ _ (hpre c) b p
  refine ⟨fun c => Cert.KernelIdeal.Value.result m c, ?_, ?_⟩
  · exact (θ_run Cert.KernelIdeal.defs _ _).mono
      (fun _ h c => ⟨(h c).1.trans (Cert.KernelIdeal.Value.value m ρ hr c), (h c).2⟩)
      (Cert.KernelIdeal.Run.run (F := Ideal) m ρ)
  · refine (θ_run Cert.ReferenceIdeal.defs _ _).mono (fun _ h c => ⟨(h c).1.trans ?_, (h c).2⟩)
      (Cert.ReferenceIdeal.RefRun.run (F := Ideal) m' ρ')
    obtain ⟨a0, a1, a2, a3, a4, a5, a6, a7⟩ := hagree c
    rw [a0, a1, a2, a3, a4, a5, a6, a7]
    funext i
    obtain ⟨b, p, v, rfl⟩ : ∃ (b : Fin 8) (p : Fin 320) (v : Fin 32000), i = ix3 b p v := ⟨i 0, i 1, i 2, eq_ix3 i⟩
    exact Cert.ReferenceIdeal.RefValue.refTerm_apply _ _ _ _ _ _ _ _ (hr c) b p v

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
